-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x48 : Shape := ⟨2, ![50000, 48]⟩
abbrev S2x800000 : Shape := ⟨2, ![2, 800000]⟩
abbrev S800000x40 : Shape := ⟨2, ![800000, 40]⟩
abbrev S800000 : Shape := ⟨1, ![800000]⟩
abbrev S50000 : Shape := ⟨1, ![50000]⟩
abbrev S48x40 : Shape := ⟨2, ![48, 40]⟩
abbrev S48 : Shape := ⟨1, ![48]⟩
abbrev S48x48 : Shape := ⟨2, ![48, 48]⟩
abbrev S119x32 : Shape := ⟨2, ![119, 32]⟩
abbrev S32x32 : Shape := ⟨2, ![32, 32]⟩
abbrev S_ : Shape := ⟨0, ![]⟩

class Facts : Prop where
  bcast_S_S50000x48 : S_.BroadcastsInDim S50000x48 (![] : Fin 0 → Fin S50000x48.rank)
  reducesTo_S50000x48_S_d0_1 : S50000x48.ReducesTo [0, 1] S_
  h_S_ : 0 < S_.numel
  bcast_S_S800000x40 : S_.BroadcastsInDim S800000x40 (![] : Fin 0 → Fin S800000x40.rank)
  reducesTo_S800000x40_S_d0_1 : S800000x40.ReducesTo [0, 1] S_
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_
  bcast_S_S48x40 : S_.BroadcastsInDim S48x40 (![] : Fin 0 → Fin S48x40.rank)
  reducesTo_S48x40_S_d0_1 : S48x40.ReducesTo [0, 1] S_
  bcast_S_S48 : S_.BroadcastsInDim S48 (![] : Fin 0 → Fin S48.rank)
  reducesTo_S48_S_d0 : S48.ReducesTo [0] S_
  bcast_S_S48x48 : S_.BroadcastsInDim S48x48 (![] : Fin 0 → Fin S48x48.rank)
  reducesTo_S48x48_S_d0_1 : S48x48.ReducesTo [0, 1] S_
  bcast_S_S119x32 : S_.BroadcastsInDim S119x32 (![] : Fin 0 → Fin S119x32.rank)
  reducesTo_S119x32_S_d0_1 : S119x32.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg14 : FVec F S48 .f32) (main_v48 : IVec S_ 1) (main_v49 : FVec F S48 .f32) (main_v50 : FVec F S48 .f32) : IVec S_ 1 :=
  let main_v51 : IVec S48 1 := cmpf .olt main_v49 main_v50
  let main_c_19 : IVec S_ 1 := constantI S_ 1 1#1
  let main_v52 : IVec S_ 1 := (fun x v => Host.reduce IntOp.andi x v reducesTo_S48_S_d0 h_S_) main_v51 main_c_19
  let main_v53 : IVec S_ 1 := andi main_v48 main_v52
  let main_v54 : FVec F S48 .f32 := Host.absf main_arg14
  let main_cst_20 : FVec F S_ .f32 := constant S_ .f32 0x7F800000#32
  let main_v55 : FVec F S48 .f32 := broadcastInDim S48 ![] bcast_S_S48 main_cst_20
  let main_v56 : IVec S48 1 := cmpf .olt main_v54 main_v55
  let main_c_21 : IVec S_ 1 := constantI S_ 1 1#1
  let main_v57 : IVec S_ 1 := (fun x v => Host.reduce IntOp.andi x v reducesTo_S48_S_d0 h_S_) main_v56 main_c_21
  let main_v58 : IVec S_ 1 := andi main_v53 main_v57
  main_v58

def fn_part2 {F : FTy → Type} [FloatOps F] (main_arg10 : FVec F S48 .f32) (main_arg11 : FVec F S119x32 .f32) (main_arg12 : FVec F S32x32 .f32) (main_arg13 : FVec F S48 .f32) (main_arg14 : FVec F S48 .f32) (main_v33 : IVec S_ 1) : IVec S_ 1 :=
  let main_v34 : FVec F S48 .f32 := Host.absf main_arg10
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S119x32 .f32 := Host.absf main_arg11
  let main_cst_14 : FVec F S_ .f32 := constant S_ .f32 0x7F800000#32
  let main_v40 : FVec F S119x32 .f32 := broadcastInDim S119x32 ![] bcast_S_S119x32 main_cst_14
  let main_v41 : IVec S119x32 1 := cmpf .olt main_v39 main_v40
  let main_c_15 : IVec S_ 1 := constantI S_ 1 1#1
  let main_v42 : IVec S_ 1 := (fun x v => Host.reduce IntOp.andi x v reducesTo_S119x32_S_d0_1 h_S_) main_v41 main_c_15
  let main_v43 : IVec S_ 1 := andi main_v38 main_v42
  let main_v44 : FVec F S32x32 .f32 := Host.absf main_arg12
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S48 .f32 := Host.absf main_arg13
  let main_cst_18 : FVec F S_ .f32 := constant S_ .f32 0x7F800000#32
  let main_v50 : FVec F S48 .f32 := broadcastInDim S48 ![] bcast_S_S48 main_cst_18
  fn_part3 (F := F) main_arg14 main_v48 main_v49 main_v50

def fn_part1 {F : FTy → Type} [FloatOps F] (main_arg7 : FVec F S48x40 .f32) (main_arg8 : FVec F S48 .f32) (main_arg9 : FVec F S48x48 .f32) (main_arg10 : FVec F S48 .f32) (main_arg11 : FVec F S119x32 .f32) (main_arg12 : FVec F S32x32 .f32) (main_arg13 : FVec F S48 .f32) (main_arg14 : FVec F S48 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S48x40 .f32 := Host.absf main_arg7
  let main_cst_6 : FVec F S_ .f32 := constant S_ .f32 0x7F800000#32
  let main_v20 : FVec F S48x40 .f32 := broadcastInDim S48x40 ![] bcast_S_S48x40 main_cst_6
  let main_v21 : IVec S48x40 1 := cmpf .olt main_v19 main_v20
  let main_c_7 : IVec S_ 1 := constantI S_ 1 1#1
  let main_v22 : IVec S_ 1 := (fun x v => Host.reduce IntOp.andi x v reducesTo_S48x40_S_d0_1 h_S_) main_v21 main_c_7
  let main_v23 : IVec S_ 1 := andi main_v18 main_v22
  let main_v24 : FVec F S48 .f32 := Host.absf main_arg8
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x48 .f32 := Host.absf main_arg9
  let main_cst_10 : FVec F S_ .f32 := constant S_ .f32 0x7F800000#32
  let main_v30 : FVec F S48x48 .f32 := broadcastInDim S48x48 ![] bcast_S_S48x48 main_cst_10
  let main_v31 : IVec S48x48 1 := cmpf .olt main_v29 main_v30
  let main_c_11 : IVec S_ 1 := constantI S_ 1 1#1
  let main_v32 : IVec S_ 1 := (fun x v => Host.reduce IntOp.andi x v reducesTo_S48x48_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x48 .f32) (main_arg1 : IVec S2x800000 32) (main_arg2 : FVec F S800000x40 .f32) (main_arg3 : FVec F S800000 .f32) (main_arg4 : IVec S50000 32) (main_arg5 : FVec F S50000 .f32) (main_arg6 : IVec S50000 32) (main_arg7 : FVec F S48x40 .f32) (main_arg8 : FVec F S48 .f32) (main_arg9 : FVec F S48x48 .f32) (main_arg10 : FVec F S48 .f32) (main_arg11 : FVec F S119x32 .f32) (main_arg12 : FVec F S32x32 .f32) (main_arg13 : FVec F S48 .f32) (main_arg14 : FVec F S48 .f32) : IVec S_ 1 :=
  let main_v0 : FVec F S50000x48 .f32 := Host.absf main_arg0
  let main_cst : FVec F S_ .f32 := constant S_ .f32 0x7F800000#32
  let main_v1 : FVec F S50000x48 .f32 := broadcastInDim S50000x48 ![] bcast_S_S50000x48 main_cst
  let main_v2 : IVec S50000x48 1 := cmpf .olt main_v0 main_v1
  let main_c : IVec S_ 1 := constantI S_ 1 1#1
  let main_v3 : IVec S_ 1 := (fun x v => Host.reduce IntOp.andi x v reducesTo_S50000x48_S_d0_1 h_S_) main_v2 main_c
  let main_v4 : FVec F S800000x40 .f32 := Host.absf main_arg2
  let main_cst_0 : FVec F S_ .f32 := constant S_ .f32 0x7F800000#32
  let main_v5 : FVec F S800000x40 .f32 := broadcastInDim S800000x40 ![] bcast_S_S800000x40 main_cst_0
  let main_v6 : IVec S800000x40 1 := cmpf .olt main_v4 main_v5
  let main_c_1 : IVec S_ 1 := constantI S_ 1 1#1
  let main_v7 : IVec S_ 1 := (fun x v => Host.reduce IntOp.andi x v reducesTo_S800000x40_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S50000 .f32 := Host.absf main_arg5
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg7 main_arg8 main_arg9 main_arg10 main_arg11 main_arg12 main_arg13 main_arg14 main_v13 main_v16
-- ==== Kernel.lean ====
abbrev S50000x48 : Shape := ⟨2, ![50000, 48]⟩
abbrev S2x800000 : Shape := ⟨2, ![2, 800000]⟩
abbrev S800000x40 : Shape := ⟨2, ![800000, 40]⟩
abbrev S800000 : Shape := ⟨1, ![800000]⟩
abbrev S50000 : Shape := ⟨1, ![50000]⟩
abbrev S48x40 : Shape := ⟨2, ![48, 40]⟩
abbrev S48 : Shape := ⟨1, ![48]⟩
abbrev S48x48 : Shape := ⟨2, ![48, 48]⟩
abbrev S119x32 : Shape := ⟨2, ![119, 32]⟩
abbrev S32x32 : Shape := ⟨2, ![32, 32]⟩
abbrev S1x800000 : Shape := ⟨2, ![1, 800000]⟩
abbrev S_ : Shape := ⟨0, ![]⟩
abbrev S50000x1 : Shape := ⟨2, ![50000, 1]⟩
abbrev S50000x32 : Shape := ⟨2, ![50000, 32]⟩
abbrev S800000x1 : Shape := ⟨2, ![800000, 1]⟩
abbrev S800000x32 : Shape := ⟨2, ![800000, 32]⟩
abbrev S800000x48 : Shape := ⟨2, ![800000, 48]⟩
abbrev S40x48 : Shape := ⟨2, ![40, 48]⟩
abbrev S3200x40 : Shape := ⟨2, ![3200, 40]⟩
abbrev S3200x48 : Shape := ⟨2, ![3200, 48]⟩
abbrev S3200x32 : Shape := ⟨2, ![3200, 32]⟩
abbrev S1x3200 : Shape := ⟨2, ![1, 3200]⟩
abbrev S1x48 : Shape := ⟨2, ![1, 48]⟩
abbrev S3200 : Shape := ⟨1, ![3200]⟩
abbrev S3200x1 : Shape := ⟨2, ![3200, 1]⟩
abbrev S5000x48 : Shape := ⟨2, ![5000, 48]⟩
abbrev S5000 : Shape := ⟨1, ![5000]⟩
abbrev S5000x1 : Shape := ⟨2, ![5000, 1]⟩

abbrev nBuf : Space → Nat
  | .hbm => 86
  | .vmem => 27
  | .smem => 0
  | _ => 0

abbrev bufTy : (tb : Table) → Fin (tcTables nBuf tb) → BufTy
  | .hbm, ⟨0, _⟩ => ⟨S50000x48, .f32⟩
  | .hbm, ⟨1, _⟩ => ⟨S2x800000, .i32⟩
  | .hbm, ⟨2, _⟩ => ⟨S800000x40, .f32⟩
  | .hbm, ⟨3, _⟩ => ⟨S800000, .f32⟩
  | .hbm, ⟨4, _⟩ => ⟨S50000, .i32⟩
  | .hbm, ⟨5, _⟩ => ⟨S50000, .f32⟩
  | .hbm, ⟨6, _⟩ => ⟨S50000, .i32⟩
  | .hbm, ⟨7, _⟩ => ⟨S48x40, .f32⟩
  | .hbm, ⟨8, _⟩ => ⟨S48, .f32⟩
  | .hbm, ⟨9, _⟩ => ⟨S48x48, .f32⟩
  | .hbm, ⟨10, _⟩ => ⟨S48, .f32⟩
  | .hbm, ⟨11, _⟩ => ⟨S119x32, .f32⟩
  | .hbm, ⟨12, _⟩ => ⟨S32x32, .f32⟩
  | .hbm, ⟨13, _⟩ => ⟨S48, .f32⟩
  | .hbm, ⟨14, _⟩ => ⟨S48, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S50000, .i32⟩
  | .hbm, ⟨21, _⟩ => ⟨S50000, .i1⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .i32⟩
  | .hbm, ⟨26, _⟩ => ⟨S50000x1, .i32⟩
  | .hbm, ⟨27, _⟩ => ⟨S50000x32, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x32, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x32, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x48, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000, .f32⟩
  | .hbm, ⟨64, _⟩ => ⟨S40x48, .f32⟩
  | .hbm, ⟨65, _⟩ => ⟨S48x48, .f32⟩
  | .hbm, ⟨66, _⟩ => ⟨S32x32, .f32⟩
  | .hbm, ⟨67, _⟩ => ⟨S1x800000, .f32⟩
  | .hbm, ⟨68, _⟩ => ⟨S1x800000, .f32⟩
  | .hbm, ⟨69, _⟩ => ⟨S800000x48, .f32⟩
  | .hbm, ⟨70, _⟩ => ⟨S_, .f32⟩
  | .hbm, ⟨71, _⟩ => ⟨S50000x48, .f32⟩
  | .hbm, ⟨72, _⟩ => ⟨S800000x1, .i32⟩
  | .hbm, ⟨73, _⟩ => ⟨S50000x48, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x48, .f32⟩
  | .hbm, ⟨84, _⟩ => ⟨S50000x48, .f32⟩
  | .hbm, ⟨85, _⟩ => ⟨S50000x48, .f32⟩
  | .local _ .vmem, ⟨0, _⟩ => ⟨S3200x40, .f32⟩
  | .local _ .vmem, ⟨1, _⟩ => ⟨S3200x40, .f32⟩
  | .local _ .vmem, ⟨2, _⟩ => ⟨S3200x48, .f32⟩
  | .local _ .vmem, ⟨3, _⟩ => ⟨S3200x48, .f32⟩
  | .local _ .vmem, ⟨4, _⟩ => ⟨S3200x32, .f32⟩
  | .local _ .vmem, ⟨5, _⟩ => ⟨S3200x32, .f32⟩
  | .local _ .vmem, ⟨6, _⟩ => ⟨S3200x32, .f32⟩
  | .local _ .vmem, ⟨7, _⟩ => ⟨S3200x32, .f32⟩
  | .local _ .vmem, ⟨8, _⟩ => ⟨S1x3200, .f32⟩
  | .local _ .vmem, ⟨9, _⟩ => ⟨S1x3200, .f32⟩
  | .local _ .vmem, ⟨10, _⟩ => ⟨S1x3200, .f32⟩
  | .local _ .vmem, ⟨11, _⟩ => ⟨S1x3200, .f32⟩
  | .local _ .vmem, ⟨12, _⟩ => ⟨S40x48, .f32⟩
  | .local _ .vmem, ⟨13, _⟩ => ⟨S48, .f32⟩
  | .local _ .vmem, ⟨14, _⟩ => ⟨S48x48, .f32⟩
  | .local _ .vmem, ⟨15, _⟩ => ⟨S48, .f32⟩
  | .local _ .vmem, ⟨16, _⟩ => ⟨S32x32, .f32⟩
  | .local _ .vmem, ⟨17, _⟩ => ⟨S3200x48, .f32⟩
  | .local _ .vmem, ⟨18, _⟩ => ⟨S3200x48, .f32⟩
  | .local _ .vmem, ⟨19, _⟩ => ⟨S5000x48, .f32⟩
  | .local _ .vmem, ⟨20, _⟩ => ⟨S5000x48, .f32⟩
  | .local _ .vmem, ⟨21, _⟩ => ⟨S5000x48, .f32⟩
  | .local _ .vmem, ⟨22, _⟩ => ⟨S5000x48, .f32⟩
  | .local _ .vmem, ⟨23, _⟩ => ⟨S48, .f32⟩
  | .local _ .vmem, ⟨24, _⟩ => ⟨S48, .f32⟩
  | .local _ .vmem, ⟨25, _⟩ => ⟨S5000x48, .f32⟩
  | .local _ .vmem, ⟨26, _⟩ => ⟨S5000x48, .f32⟩
  | _, _ => ⟨S50000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_call0_v0 : Ref sig .tc := ⟨.hbm, 79, rfl⟩
abbrev main_call0_v1 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem4_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S40x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x48 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  transposes_S48x40_S40x48_1_0 : S48x40.Transposes [1, 0] S40x48
  transposes_S48x48_S48x48_1_0 : S48x48.Transposes [1, 0] S48x48
  transposes_S32x32_S32x32_1_0 : S32x32.Transposes [1, 0] S32x32
  bcast_S800000_S1x800000_1 : S800000.BroadcastsInDim S1x800000 (![1] : Fin 1 → Fin S1x800000.rank)
  inb_S3200x40_S3200x40_0_0 : ∀ a, (![0, 0] : Fin 2 → Nat) a + S3200x40.size a ≤ S3200x40.size a
  h_S3200x40 : 0 < S3200x40.numel
  bitsLt_bf16_f32 : FTy.bits .bf16 < FTy.bits .f32
  inb_S40x48_S40x48_0_0 : ∀ a, (![0, 0] : Fin 2 → Nat) a + S40x48.size a ≤ S40x48.size a
  h_S40x48 : 0 < S40x48.numel
  shapeCasts_S40x48_S40x48 : S40x48.ShapeCasts S40x48
  inb_S48_S48_0 : ∀ a, (![0] : Fin 1 → Nat) a + S48.size a ≤ S48.size a
  h_S48 : 0 < S48.numel
  shapeCasts_S48_S1x48 : S48.ShapeCasts S1x48
  broadcasts_S1x48_S3200x48 : S1x48.Broadcasts S3200x48
  inb_S48x48_S48x48_0_0 : ∀ a, (![0, 0] : Fin 2 → Nat) a + S48x48.size a ≤ S48x48.size a
  h_S48x48 : 0 < S48x48.numel
  shapeCasts_S48x48_S48x48 : S48x48.ShapeCasts S48x48
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S3200x32_S3200 : S3200x32.Reduces [1] S3200
  shapeCasts_S3200_S3200x1 : S3200.ShapeCasts S3200x1
  broadcasts_S3200x1_S3200x48 : S3200x1.Broadcasts S3200x48
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  transposes_S1x3200_p1_0_S3200x1 : S1x3200.Transposes [1, 0] S3200x1
  inb_S3200x48_S3200x48_0_0 : ∀ a, (![0, 0] : Fin 2 → Nat) a + S3200x48.size a ≤ S3200x48.size a
  h_S3200x48 : 0 < S3200x48.numel
  shapeCasts_S3200x48_S3200x48 : S3200x48.ShapeCasts S3200x48
  bcast_S_S50000x48 : S_.BroadcastsInDim S50000x48 (![] : Fin 0 → Fin S50000x48.rank)
  bcast_S50000x1_S50000x48_0_1 : S50000x1.BroadcastsInDim S50000x48 (![0, 1] : Fin 2 → Fin S50000x48.rank)
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  reduces_S5000x48_S5000 : S5000x48.Reduces [1] S5000
  shapeCasts_S5000_S5000x1 : S5000.ShapeCasts S5000x1
  broadcasts_S5000x1_S5000x48 : S5000x1.Broadcasts S5000x48
  broadcasts_S1x48_S5000x48 : S1x48.Broadcasts S5000x48
  gather_S119x32_S50000x1_S50000x32_1_0_n_n_0_1_132_wf : GatherDims.WF S119x32 S50000x1 S50000x32 [1] [0] [] [0] [] 1 ![1, 32]
  gather_S50000x32_S800000x1_S800000x32_1_0_n_n_0_1_132_wf : GatherDims.WF S50000x32 S800000x1 S800000x32 [1] [0] [] [0] [] 1 ![1, 32]
  gather_S50000x48_S800000x1_S800000x48_1_0_n_n_0_1_148_wf : GatherDims.WF S50000x48 S800000x1 S800000x48 [1] [0] [] [0] [] 1 ![1, 48]
  gather_S50000_S800000x1_S800000_n_0_n_n_0_1_1_wf : GatherDims.WF S50000 S800000x1 S800000 [] [0] [] [0] [] 1 ![1]
  dot_S3200x40_S40x48_S3200x48_1_0_0_1_n_n_wf : DotDims.WF S3200x40 S40x48 S3200x48 [1] [0] [0] [1] [] []
  dot_S3200x48_S48x48_S3200x48_1_0_0_1_n_n_wf : DotDims.WF S3200x48 S48x48 S3200x48 [1] [0] [0] [1] [] []
  dot_S3200x32_S32x32_S3200x32_1_0_0_1_n_n_wf : DotDims.WF S3200x32 S32x32 S3200x32 [1] [0] [0] [1] [] []
  scatter_S50000x48_S800000x1_S800000x48_1_0_0_1_wf : ScatterDims.WF S50000x48 S800000x1 S800000x48 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x40.size a ≤ S800000x40.size a
  hwx0_0 : ∀ i : grid0.Coords, EltTy.bits .f32 = 32 ∨ (Rect.block (s := S800000x40) S3200x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x48.size a ≤ S800000x48.size a
  hwx0_1 : ∀ i : grid0.Coords, EltTy.bits .f32 = 32 ∨ (Rect.block (s := S800000x48) S3200x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x32.size a ≤ S800000x32.size a
  hwx0_2 : ∀ i : grid0.Coords, EltTy.bits .f32 = 32 ∨ (Rect.block (s := S800000x32) S3200x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x32.size a ≤ S800000x32.size a
  hwx0_3 : ∀ i : grid0.Coords, EltTy.bits .f32 = 32 ∨ (Rect.block (s := S800000x32) S3200x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3200.size a ≤ S1x800000.size a
  hwx0_4 : ∀ i : grid0.Coords, EltTy.bits .f32 = 32 ∨ (Rect.block (s := S1x800000) S1x3200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3200.size a ≤ S1x800000.size a
  hwx0_5 : ∀ i : grid0.Coords, EltTy.bits .f32 = 32 ∨ (Rect.block (s := S1x800000) S1x3200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40x48.size a ≤ S40x48.size a
  hwx0_6 : ∀ i : grid0.Coords, EltTy.bits .f32 = 32 ∨ (Rect.block (s := S40x48) S40x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48.size a ≤ S48.size a
  hwx0_7 : ∀ i : grid0.Coords, EltTy.bits .f32 = 32 ∨ (Rect.block (s := S48) S48.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S48x48.size a ≤ S48x48.size a
  hwx0_8 : ∀ i : grid0.Coords, EltTy.bits .f32 = 32 ∨ (Rect.block (s := S48x48) S48x48.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S48.size a ≤ S48.size a
  hwx0_9 : ∀ i : grid0.Coords, EltTy.bits .f32 = 32 ∨ (Rect.block (s := S48) S48.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x48.size a ≤ S800000x48.size a
  hwx0_11 : ∀ i : grid0.Coords, EltTy.bits .f32 = 32 ∨ (Rect.block (s := S800000x48) S3200x48.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S50000x48.size a
  hwx1_0 : ∀ i : grid1.Coords, EltTy.bits .f32 = 32 ∨ (Rect.block (s := S50000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S50000x48.size a
  hwx1_1 : ∀ i : grid1.Coords, EltTy.bits .f32 = 32 ∨ (Rect.block (s := S50000x48) S5000x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48.size a ≤ S48.size a
  hwx1_2 : ∀ i : grid1.Coords, EltTy.bits .f32 = 32 ∨ (Rect.block (s := S48) S48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48.size a ≤ S48.size a
  hwx1_3 : ∀ i : grid1.Coords, EltTy.bits .f32 = 32 ∨ (Rect.block (s := S48) S48.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x48.size a ≤ S50000x48.size a
  hwx1_4 : ∀ i : grid1.Coords, EltTy.bits .f32 = 32 ∨ (Rect.block (s := S50000x48) S5000x48.size (cc1_transform_4 i) (hinb1_4 i)).WholeWords (EltTy.packing .f32)

variable [Facts₀]

def gather_S119x32_S50000x1_S50000x32_1_0_n_n_0_1_132 : GatherDims S119x32 S50000x1 S50000x32 where
  offsetDims := [1]
  collapsedSliceDims := [0]
  operandBatchingDims := []
  startIndicesBatchingDims := []
  startIndexMap := [0]
  indexVectorDim := 1
  sliceSizes := ![1, 32]
  wf := gather_S119x32_S50000x1_S50000x32_1_0_n_n_0_1_132_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S3200x40_S40x48_S3200x48_1_0_0_1_n_n : DotDims S3200x40 S40x48 S3200x48 where
  lhsContracting := [1]
  rhsContracting := [0]
  lhsNonContracting := [0]
  rhsNonContracting := [1]
  lhsBatch := []
  rhsBatch := []
  wf := dot_S3200x40_S40x48_S3200x48_1_0_0_1_n_n_wf
def dot_S3200x48_S48x48_S3200x48_1_0_0_1_n_n : DotDims S3200x48 S48x48 S3200x48 where
  lhsContracting := [1]
  rhsContracting := [0]
  lhsNonContracting := [0]
  rhsNonContracting := [1]
  lhsBatch := []
  rhsBatch := []
  wf := dot_S3200x48_S48x48_S3200x48_1_0_0_1_n_n_wf
def dot_S3200x32_S32x32_S3200x32_1_0_0_1_n_n : DotDims S3200x32 S32x32 S3200x32 where
  lhsContracting := [1]
  rhsContracting := [0]
  lhsNonContracting := [0]
  rhsNonContracting := [1]
  lhsBatch := []
  rhsBatch := []
  wf := dot_S3200x32_S32x32_S3200x32_1_0_0_1_n_n_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg2) S3200x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S3200x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S3200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S3200x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x3200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x3200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S40x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S48x48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S3200x48.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x48.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x48 : Shape := ⟨2, ![50000, 48]⟩
abbrev S2x800000 : Shape := ⟨2, ![2, 800000]⟩
abbrev S800000x40 : Shape := ⟨2, ![800000, 40]⟩
abbrev S800000 : Shape := ⟨1, ![800000]⟩
abbrev S50000 : Shape := ⟨1, ![50000]⟩
abbrev S48x40 : Shape := ⟨2, ![48, 40]⟩
abbrev S48 : Shape := ⟨1, ![48]⟩
abbrev S48x48 : Shape := ⟨2, ![48, 48]⟩
abbrev S119x32 : Shape := ⟨2, ![119, 32]⟩
abbrev S32x32 : Shape := ⟨2, ![32, 32]⟩
abbrev S1x800000 : Shape := ⟨2, ![1, 800000]⟩
abbrev S40x48 : Shape := ⟨2, ![40, 48]⟩
abbrev S800000x48 : Shape := ⟨2, ![800000, 48]⟩
abbrev S1x48 : Shape := ⟨2, ![1, 48]⟩
abbrev S_ : Shape := ⟨0, ![]⟩
abbrev S800000x1 : Shape := ⟨2, ![800000, 1]⟩
abbrev S800000x32 : Shape := ⟨2, ![800000, 32]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x48, .f32⟩
  | 1 => ⟨S2x800000, .i32⟩
  | 2 => ⟨S800000x40, .f32⟩
  | 3 => ⟨S800000, .f32⟩
  | 4 => ⟨S50000, .i32⟩
  | 5 => ⟨S50000, .f32⟩
  | 6 => ⟨S50000, .i32⟩
  | 7 => ⟨S48x40, .f32⟩
  | 8 => ⟨S48, .f32⟩
  | 9 => ⟨S48x48, .f32⟩
  | 10 => ⟨S48, .f32⟩
  | 11 => ⟨S119x32, .f32⟩
  | 12 => ⟨S32x32, .f32⟩
  | 13 => ⟨S48, .f32⟩
  | 14 => ⟨S48, .f32⟩
  | 15 => ⟨S1x800000, .i32⟩
  | 16 => ⟨S800000, .i32⟩
  | 17 => ⟨S1x800000, .i32⟩
  | 18 => ⟨S800000, .i32⟩
  | 19 => ⟨S40x48, .f32⟩
  | 20 => ⟨S800000x48, .f32⟩
  | 21 => ⟨S1x48, .f32⟩
  | 22 => ⟨S800000x48, .f32⟩
  | 23 => ⟨S800000x48, .f32⟩
  | 24 => ⟨S800000x48, .f32⟩
  | 25 => ⟨S800000x48, .f32⟩
  | 26 => ⟨S_, .f32⟩
  | 27 => ⟨S800000x48, .f32⟩
  | 28 => ⟨S800000x48, .f32⟩
  | 29 => ⟨S_, .f32⟩
  | 30 => ⟨S800000x48, .f32⟩
  | 31 => ⟨S800000x48, .f32⟩
  | 32 => ⟨S800000x48, .f32⟩
  | 33 => ⟨S48x48, .f32⟩
  | 34 => ⟨S800000x48, .f32⟩
  | 35 => ⟨S1x48, .f32⟩
  | 36 => ⟨S800000x48, .f32⟩
  | 37 => ⟨S800000x48, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .i32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x32, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x32, .f32⟩
  | 74 => ⟨S32x32, .f32⟩
  | 75 => ⟨S800000x32, .f32⟩
  | 76 => ⟨S800000x32, .f32⟩
  | 77 => ⟨S_, .f32⟩
  | 78 => ⟨S800000, .f32⟩
  | 79 => ⟨S800000x1, .f32⟩
  | 80 => ⟨S800000x48, .f32⟩
  | 81 => ⟨S800000x48, .f32⟩
  | 82 => ⟨S_, .f32⟩
  | 83 => ⟨S800000, .f32⟩
  | 84 => ⟨S800000, .i1⟩
  | 85 => ⟨S_, .f32⟩
  | 86 => ⟨S800000, .f32⟩
  | 87 => ⟨S800000, .f32⟩
  | 88 => ⟨S_, .f32⟩
  | 89 => ⟨S800000, .f32⟩
  | 90 => ⟨S800000, .f32⟩
  | 91 => ⟨S800000, .f32⟩
  | 92 => ⟨S_, .f32⟩
  | 93 => ⟨S800000, .f32⟩
  | 94 => ⟨S800000, .f32⟩
  | 95 => ⟨S_, .f32⟩
  | 96 => ⟨S800000, .f32⟩
  | 97 => ⟨S800000, .f32⟩
  | 98 => ⟨S_, .f32⟩
  | 99 => ⟨S_, .f32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x48, .f32⟩
  | 120 => ⟨S800000x48, .f32⟩
  | 121 => ⟨S800000, .f32⟩
  | 122 => ⟨S800000x1, .f32⟩
  | 123 => ⟨S800000x48, .f32⟩
  | 124 => ⟨S800000x48, .f32⟩
  | 125 => ⟨S_, .f32⟩
  | 126 => ⟨S50000x48, .f32⟩
  | 127 => ⟨S800000x1, .i32⟩
  | _ => ⟨S50000x48, .f32⟩

abbrev hbmTy0_1 (i : Nat) : BufTy := match i % 128 with
  | 0 => ⟨S50000x48, .f32⟩
  | 1 => ⟨S_, .f32⟩
  | 2 => ⟨S50000, .f32⟩
  | 3 => ⟨S800000x1, .i32⟩
  | 4 => ⟨S50000, .f32⟩
  | 5 => ⟨S_, .f32⟩
  | 6 => ⟨S_, .f32⟩
  | 7 => ⟨S50000, .f32⟩
  | 8 => ⟨S50000, .f32⟩
  | 9 => ⟨S50000x1, .f32⟩
  | 10 => ⟨S50000x48, .f32⟩
  | 11 => ⟨S50000x48, .f32⟩
  | 12 => ⟨S50000x48, .f32⟩
  | 13 => ⟨S_, .f32⟩
  | 14 => ⟨S50000, .f32⟩
  | 15 => ⟨S50000x1, .f32⟩
  | 16 => ⟨S_, .f32⟩
  | 17 => ⟨S50000x1, .f32⟩
  | 18 => ⟨S50000x1, .f32⟩
  | 19 => ⟨S50000x48, .f32⟩
  | 20 => ⟨S50000x48, .f32⟩
  | 21 => ⟨S50000x48, .f32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x48, .f32⟩
  | 29 => ⟨S50000x48, .f32⟩
  | 30 => ⟨S_, .f32⟩
  | 31 => ⟨S50000x1, .f32⟩
  | 32 => ⟨S50000x1, .f32⟩
  | 33 => ⟨S50000x1, .f32⟩
  | 34 => ⟨S50000x48, .f32⟩
  | 35 => ⟨S50000x48, .f32⟩
  | 36 => ⟨S1x48, .f32⟩
  | 37 => ⟨S50000x48, .f32⟩
  | 38 => ⟨S50000x48, .f32⟩
  | 39 => ⟨S1x48, .f32⟩
  | 40 => ⟨S50000x48, .f32⟩
  | 41 => ⟨S50000x48, .f32⟩
  | _ => ⟨S50000x48, .f32⟩

abbrev hbmTy (i : Nat) : BufTy := match i / 128 with
  | 0 => hbmTy0_0 i
  | 1 => hbmTy0_1 i
  | _ => ⟨S50000x48, .f32⟩

abbrev bufTy : (tb : Table) → Fin (tcTables nBuf tb) → BufTy
  | .hbm, ⟨i, _⟩ => hbmTy i
  | _, _ => ⟨S50000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_c_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_3 : Ref sig .tc := ⟨.hbm, 56, rfl⟩
abbrev main_v29 : Ref sig .tc := ⟨.hbm, 57, rfl⟩
abbrev main_v30 : Ref sig .tc := ⟨.hbm, 58, rfl⟩
abbrev main_c_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_call1_v0 : Ref sig .tc := ⟨.hbm, 99, rfl⟩
abbrev main_call1_v1 : Ref sig .tc := ⟨.hbm, 100, rfl⟩
abbrev main_v61 : Ref sig .tc := ⟨.hbm, 101, rfl⟩
abbrev main_c_13 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_15 : Ref sig .tc := ⟨.hbm, 111, rfl⟩
abbrev main_v69 : Ref sig .tc := ⟨.hbm, 112, rfl⟩
abbrev main_v70 : Ref sig .tc := ⟨.hbm, 113, rfl⟩
abbrev main_c_16 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_17 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_18 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_19 : Ref sig .tc := ⟨.hbm, 133, rfl⟩
abbrev main_call2_v0 : Ref sig .tc := ⟨.hbm, 134, rfl⟩
abbrev main_call2_v1 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_20 : Ref sig .tc := ⟨.hbm, 141, rfl⟩
abbrev main_v92 : Ref sig .tc := ⟨.hbm, 142, rfl⟩
abbrev main_v93 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_22 : Ref sig .tc := ⟨.hbm, 150, rfl⟩
abbrev main_v99 : Ref sig .tc := ⟨.hbm, 151, rfl⟩
abbrev main_v100 : Ref sig .tc := ⟨.hbm, 152, rfl⟩
abbrev main_cst_23 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_24 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S48x40_S40x48_1_0 : S48x40.Transposes [1, 0] S40x48
  bcast_S48_S1x48_1 : S48.BroadcastsInDim S1x48 (![1] : Fin 1 → Fin S1x48.rank)
  bcast_S1x48_S800000x48_0_1 : S1x48.BroadcastsInDim S800000x48 (![0, 1] : Fin 2 → Fin S800000x48.rank)
  bcast_S_S800000x48 : S_.BroadcastsInDim S800000x48 (![] : Fin 0 → Fin S800000x48.rank)
  transposes_S48x48_S48x48_1_0 : S48x48.Transposes [1, 0] S48x48
  bcast_S_S800000 : S_.BroadcastsInDim S800000 (![] : Fin 0 → Fin S800000.rank)
  bcast_S800000_S800000x1_0 : S800000.BroadcastsInDim S800000x1 (![0] : Fin 1 → Fin S800000x1.rank)
  transposes_S32x32_S32x32_1_0 : S32x32.Transposes [1, 0] S32x32
  reducesTo_S800000x32_S800000_d1 : S800000x32.ReducesTo [1] S800000
  h_S_ : 0 < S_.numel
  bcast_S800000x1_S800000x48_0_1 : S800000x1.BroadcastsInDim S800000x48 (![0, 1] : Fin 2 → Fin S800000x48.rank)
  bcast_S_S50000x48 : S_.BroadcastsInDim S50000x48 (![] : Fin 0 → Fin S50000x48.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x48_0_1 : S50000x1.BroadcastsInDim S50000x48 (![0, 1] : Fin 2 → Fin S50000x48.rank)
  reducesTo_S50000x48_S50000_d1 : S50000x48.ReducesTo [1] S50000
  bcast_S_S50000x1 : S_.BroadcastsInDim S50000x1 (![] : Fin 0 → Fin S50000x1.rank)
  bcast_S1x48_S50000x48_0_1 : S1x48.BroadcastsInDim S50000x48 (![0, 1] : Fin 2 → Fin S50000x48.rank)
  dot_S800000x40_S40x48_S800000x48_1_0_0_1_n_n_wf : DotDims.WF S800000x40 S40x48 S800000x48 [1] [0] [0] [1] [] []
  dot_S800000x48_S48x48_S800000x48_1_0_0_1_n_n_wf : DotDims.WF S800000x48 S48x48 S800000x48 [1] [0] [0] [1] [] []
  gather_S50000_S800000x1_S800000_n_0_n_n_0_1_1_wf : GatherDims.WF S50000 S800000x1 S800000 [] [0] [] [0] [] 1 ![1]
  gather_S119x32_S800000x1_S800000x32_1_0_n_n_0_1_132_wf : GatherDims.WF S119x32 S800000x1 S800000x32 [1] [0] [] [0] [] 1 ![1, 32]
  dot_S800000x32_S32x32_S800000x32_1_0_0_1_n_n_wf : DotDims.WF S800000x32 S32x32 S800000x32 [1] [0] [0] [1] [] []
  gather_S50000x48_S800000x1_S800000x48_1_0_n_n_0_1_148_wf : GatherDims.WF S50000x48 S800000x1 S800000x48 [1] [0] [] [0] [] 1 ![1, 48]
  scatter_S50000x48_S800000x1_S800000x48_1_0_0_1_wf : ScatterDims.WF S50000x48 S800000x1 S800000x48 [1] [0] [0] 1
  scatter_S50000_S800000x1_S800000_n_0_0_1_wf : ScatterDims.WF S50000 S800000x1 S800000 [] [0] [0] 1

variable [Facts₀]

def dot_S800000x40_S40x48_S800000x48_1_0_0_1_n_n : DotDims S800000x40 S40x48 S800000x48 where
  lhsContracting := [1]
  rhsContracting := [0]
  lhsNonContracting := [0]
  rhsNonContracting := [1]
  lhsBatch := []
  rhsBatch := []
  wf := dot_S800000x40_S40x48_S800000x48_1_0_0_1_n_n_wf
def dot_S800000x48_S48x48_S800000x48_1_0_0_1_n_n : DotDims S800000x48 S48x48 S800000x48 where
  lhsContracting := [1]
  rhsContracting := [0]
  lhsNonContracting := [0]
  rhsNonContracting := [1]
  lhsBatch := []
  rhsBatch := []
  wf := dot_S800000x48_S48x48_S800000x48_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S119x32_S800000x1_S800000x32_1_0_n_n_0_1_132 : GatherDims S119x32 S800000x1 S800000x32 where
  offsetDims := [1]
  collapsedSliceDims := [0]
  operandBatchingDims := []
  startIndicesBatchingDims := []
  startIndexMap := [0]
  indexVectorDim := 1
  sliceSizes := ![1, 32]
  wf := gather_S119x32_S800000x1_S800000x32_1_0_n_n_0_1_132_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KHostDefs.lean ====
/-
  The kernel program's host arithmetic around its two pallas_calls, as functions of @main's argument arrays: the edges'
  source and target rows of the index array, an index wrapped from the end when negative, the element embedding of
  every node and its rows gathered at the edges' end points, the target node's features and multiplicity gathered per
  edge, the three weight matrices transposed, the two per-edge rows laid out as 1 x E, and, after the first call, the
  messages summed into their source nodes and divided by the summed multiplicities clipped below at 1e-8.
-/
import proofs.«425709_j66537633349675_2_alg».proof.Proof.Gen.KernelIdeal

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Row 0 of the index array: every edge's source node. -/
def srcK (x1 : (⟨S2x800000, .i32⟩ : BufTy).Contents (Elt F)) : (⟨S800000, .i32⟩ : BufTy).Contents (Elt F) :=
  shapeCast S800000 (extractStridedSlice S1x800000 ![0, 0] x1 slices_S2x800000_S1x800000_0_0) shapeCasts_S1x800000_S800000
/-- Row 1: every edge's target node. -/
def dstK (x1 : (⟨S2x800000, .i32⟩ : BufTy).Contents (Elt F)) : (⟨S800000, .i32⟩ : BufTy).Contents (Elt F) :=
  shapeCast S800000 (extractStridedSlice S1x800000 ![1, 0] x1 slices_S2x800000_S1x800000_1_0) shapeCasts_S1x800000_S800000
/-- A per-edge node index, counted from the end (plus 50000) when negative, as a column of start indices. -/
def nodeCol (x : (⟨S800000, .i32⟩ : BufTy).Contents (Elt F)) : (⟨S800000x1, .i32⟩ : BufTy).Contents (Elt F) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)
/-- A per-edge node index as it is, as a column of scatter indices. -/
def rawCol (x : (⟨S800000, .i32⟩ : BufTy).Contents (Elt F)) : (⟨S800000x1, .i32⟩ : BufTy).Contents (Elt F) :=
  broadcastInDim S800000x1 ![0] bcast_S800000_S800000x1_0 x
/-- Every node's element embedding: the table's row at the atomic number, counted from the end (plus 119) when negative. -/
def nodeEmbK (x4 : (⟨S50000, .i32⟩ : BufTy).Contents (Elt F)) (x11 : (⟨S119x32, .f32⟩ : BufTy).Contents (Elt F)) :
    (⟨S50000x32, .f32⟩ : BufTy).Contents (Elt F) :=
  Host.gather gather_S119x32_S50000x1_S50000x32_1_0_n_n_0_1_132 x11
    (broadcastInDim S50000x1 ![0] bcast_S50000_S50000x1_0
      (select (cmpi .slt x4 (broadcastInDim S50000 ![] bcast_S_S50000 (constantI S_ 32 0#32)))
        (addi x4 (broadcastInDim S50000 ![] bcast_S_S50000 (constantI S_ 32 119#32))) x4))
/-- The source node's embedding, per edge. -/
def eiK (x1 : (⟨S2x800000, .i32⟩ : BufTy).Contents (Elt F)) (x4 : (⟨S50000, .i32⟩ : BufTy).Contents (Elt F))
    (x11 : (⟨S119x32, .f32⟩ : BufTy).Contents (Elt F)) : (⟨S800000x32, .f32⟩ : BufTy).Contents (Elt F) :=
  Host.gather gather_S50000x32_S800000x1_S800000x32_1_0_n_n_0_1_132 (nodeEmbK x4 x11) (nodeCol (srcK x1))
/-- The target node's embedding, per edge. -/
def ejK (x1 : (⟨S2x800000, .i32⟩ : BufTy).Contents (Elt F)) (x4 : (⟨S50000, .i32⟩ : BufTy).Contents (Elt F))
    (x11 : (⟨S119x32, .f32⟩ : BufTy).Contents (Elt F)) : (⟨S800000x32, .f32⟩ : BufTy).Contents (Elt F) :=
  Host.gather gather_S50000x32_S800000x1_S800000x32_1_0_n_n_0_1_132 (nodeEmbK x4 x11) (nodeCol (dstK x1))
/-- The target node's features, per edge. -/
def hdstK (x0 : (⟨S50000x48, .f32⟩ : BufTy).Contents (Elt F)) (x1 : (⟨S2x800000, .i32⟩ : BufTy).Contents (Elt F)) :
    (⟨S800000x48, .f32⟩ : BufTy).Contents (Elt F) :=
  Host.gather gather_S50000x48_S800000x1_S800000x48_1_0_n_n_0_1_148 x0 (nodeCol (dstK x1))
/-- The target node's multiplicity, per edge. -/
def mjK (x1 : (⟨S2x800000, .i32⟩ : BufTy).Contents (Elt F)) (x5 : (⟨S50000, .f32⟩ : BufTy).Contents (Elt F)) :
    (⟨S800000, .f32⟩ : BufTy).Contents (Elt F) :=
  Host.gather gather_S50000_S800000x1_S800000_n_0_n_n_0_1_1 x5 (nodeCol (dstK x1))
/-- The filter's first weight matrix, transposed to 40 x 48. -/
def w1tK (x7 : (⟨S48x40, .f32⟩ : BufTy).Contents (Elt F)) : (⟨S40x48, .f32⟩ : BufTy).Contents (Elt F) :=
  transpose S40x48 [1, 0] x7 transposes_S48x40_S40x48_1_0
/-- The second, transposed. -/
def w2tK (x9 : (⟨S48x48, .f32⟩ : BufTy).Contents (Elt F)) : (⟨S48x48, .f32⟩ : BufTy).Contents (Elt F) :=
  transpose S48x48 [1, 0] x9 transposes_S48x48_S48x48_1_0
/-- The bilinear form's matrix, transposed. -/
def awtK (x12 : (⟨S32x32, .f32⟩ : BufTy).Contents (Elt F)) : (⟨S32x32, .f32⟩ : BufTy).Contents (Elt F) :=
  transpose S32x32 [1, 0] x12 transposes_S32x32_S32x32_1_0
/-- A per-edge vector laid out as one row of 800000. -/
def asRowK (x : (⟨S800000, .f32⟩ : BufTy).Contents (Elt F)) : (⟨S1x800000, .f32⟩ : BufTy).Contents (Elt F) :=
  broadcastInDim S1x800000 ![1] bcast_S800000_S1x800000_1 x
/-- The messages summed into their source nodes, over the summed multiplicities clipped below at the word of 1e-8. -/
def aggK (msg : (⟨S800000x48, .f32⟩ : BufTy).Contents (Elt F)) (x1 : (⟨S2x800000, .i32⟩ : BufTy).Contents (Elt F))
    (x5 : (⟨S50000, .f32⟩ : BufTy).Contents (Elt F)) : (⟨S50000x48, .f32⟩ : BufTy).Contents (Elt F) :=
  Host.divf
    (Host.scatterAdd scatter_S50000x48_S800000x1_S800000x48_1_0_0_1
      (broadcastInDim S50000x48 ![] bcast_S_S50000x48 (constant S_ .f32 0x00000000#32)) (rawCol (srcK x1)) msg)
    (broadcastInDim S50000x48 ![0, 1] bcast_S50000x1_S50000x48_0_1
      (broadcastInDim S50000x1 ![0] bcast_S50000_S50000x1_0
        (maximumf (broadcastInDim S50000 ![] bcast_S_S50000 (id (constant S_ .f32 0x322BCC77#32)))
          (Host.scatterAdd scatter_S50000_S800000x1_S800000_n_0_0_1
            (broadcastInDim S50000 ![] bcast_S_S50000 (constant S_ .f32 0x00000000#32)) (rawCol (srcK x1)) (mjK x1 x5)))))

end Cert.KernelIdeal.HostValue

end
-- ==== Proof.Spec.lean ====
/-
  The mathematics of the message-passing layer, read at the ideal floats (extended reals, exact operations),
  index by index over the literal shapes: what every edge sends (a two-layer filter of the edge's features, gated by a
  bilinear form of the end points' element embeddings, times the receiving node's features, times a cosine cutoff of
  the edge's length and the node's multiplicity), and the layer normalisation of a node's row after the aggregated
  messages are added. The normalisation is written twice, as a product with the reciprocal square root and as a
  quotient by the square root; the two agree on every extended real because the variance plus a positive constant is
  positive, where both readings of "one over the root" coincide (at an infinite variance both give 0).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes (edges E = 800000, nodes N = 50000, hidden 48, radial 40, embedding 32) -/

abbrev SE40 : Shape := ⟨2, ![800000, 40]⟩
abbrev SE48 : Shape := ⟨2, ![800000, 48]⟩
abbrev SE32 : Shape := ⟨2, ![800000, 32]⟩
abbrev SE : Shape := ⟨1, ![800000]⟩
abbrev S40x48 : Shape := ⟨2, ![40, 48]⟩
abbrev S48x48 : Shape := ⟨2, ![48, 48]⟩
abbrev S32x32 : Shape := ⟨2, ![32, 32]⟩
abbrev S48 : Shape := ⟨1, ![48]⟩
abbrev SN48 : Shape := ⟨2, ![50000, 48]⟩

/-! ## The literals, as the words both programs print -/

abbrev wSix : EReal := Ideal.ofBits .f32 0x40C00000#32
abbrev wPi : EReal := Ideal.ofBits .f32 0x40490FDB#32
abbrev wOne : EReal := Ideal.ofBits .f32 0x3F800000#32
abbrev wHalf : EReal := Ideal.ofBits .f32 0x3F000000#32
abbrev wZero : EReal := Ideal.ofBits .f32 0x00000000#32
abbrev w48 : EReal := Ideal.ofBits .f32 0x42400000#32
abbrev wEps : EReal := Ideal.ofBits .f32 0x3727C5AC#32

/-- The word of 1.0 denotes 1. -/
theorem wOne_eq : Ideal.ofBits .f32 0x3F800000#32 = 1 := by
  simp [Ideal.ofBits, Ideal.ieee]
  rw [← EReal.coe_mul]
  exact_mod_cast (by norm_num : (8388608 : ℝ) * ((2 : ℝ) ^ 23)⁻¹ = 1)

/-- The word of 48.0 denotes 48. -/
theorem w48_eq : Ideal.ofBits .f32 0x42400000#32 = ((48 : ℝ) : EReal) := by
  simp [Ideal.ofBits, Ideal.ieee]
  rw [← EReal.coe_mul]
  exact_mod_cast (by norm_num : (12582912 : ℝ) * (((2 ^ 18 : ℕ) : ℝ))⁻¹ = 48)

/-- The layer normalisation's constant is a positive real. -/
theorem wEps_pos : (0 : EReal) < Ideal.ofBits .f32 0x3727C5AC#32 := by
  simp [Ideal.ofBits, Ideal.ieee]
  rw [← EReal.coe_mul]
  exact_mod_cast (by norm_num : (0 : ℝ) < (10995116 : ℝ) * (((2 ^ 40 : ℕ) : ℝ))⁻¹)

/-! ## What an edge sends -/

/-- x · sigmoid x. -/
def silu (x : EReal) : EReal := x * Ideal.logistic x

/-- The cosine cutoff: one half of (cos (π d / 6) + 1) below the cutoff 6, and 0 from it on. -/
def cutoff (d : EReal) : EReal :=
  Scalar.select (Ideal.cmp .olt d wSix) (wHalf * (Ideal.cos (Ideal.div (wPi * d) wSix) + wOne)) wZero

/-- The filter's hidden layer at edge e, unit k. -/
def hid (ea : FVec Ideal SE40 .f32) (W1T : FVec Ideal S40x48 .f32) (b1 : FVec Ideal S48 .f32) (e : Fin 800000) (k : Fin 48) : EReal :=
  (∑ r : Fin 40, ea (ix2 e r) * W1T (ix2 r k)) + b1 (ix1 k)

/-- The bilinear form of the two end points' embeddings at edge e. -/
def bil (ei ej : FVec Ideal SE32 .f32) (aWT : FVec Ideal S32x32 .f32) (e : Fin 800000) : EReal :=
  ∑ g : Fin 32, ei (ix2 e g) * (∑ g' : Fin 32, ej (ix2 e g') * aWT (ix2 g' g))

/-- The gate at edge e, channel j. -/
def gate (ea : FVec Ideal SE40 .f32) (ei ej : FVec Ideal SE32 .f32) (W1T : FVec Ideal S40x48 .f32) (b1 : FVec Ideal S48 .f32)
    (W2T : FVec Ideal S48x48 .f32) (b2 : FVec Ideal S48 .f32) (aWT : FVec Ideal S32x32 .f32) (e : Fin 800000) (j : Fin 48) : EReal :=
  ((∑ k : Fin 48, silu (hid ea W1T b1 e k) * W2T (ix2 k j)) + b2 (ix1 j)) + bil ei ej aWT e

/-- The message of edge e in channel j. -/
def msgAt (ea : FVec Ideal SE40 .f32) (hdst : FVec Ideal SE48 .f32) (ei ej : FVec Ideal SE32 .f32) (dist mj : FVec Ideal SE .f32)
    (W1T : FVec Ideal S40x48 .f32) (b1 : FVec Ideal S48 .f32) (W2T : FVec Ideal S48x48 .f32) (b2 : FVec Ideal S48 .f32)
    (aWT : FVec Ideal S32x32 .f32) (e : Fin 800000) (j : Fin 48) : EReal :=
  (gate ea ei ej W1T b1 W2T b2 aWT e j * hdst (ix2 e j)) * (cutoff (dist (ix1 e)) * mj (ix1 e))

/-- All messages. -/
def msg (ea : FVec Ideal SE40 .f32) (hdst : FVec Ideal SE48 .f32) (ei ej : FVec Ideal SE32 .f32) (dist mj : FVec Ideal SE .f32)
    (W1T : FVec Ideal S40x48 .f32) (b1 : FVec Ideal S48 .f32) (W2T : FVec Ideal S48x48 .f32) (b2 : FVec Ideal S48 .f32)
    (aWT : FVec Ideal S32x32 .f32) : FVec Ideal SE48 .f32 :=
  fun i => msgAt ea hdst ei ej dist mj W1T b1 W2T b2 aWT (i 0) (i 1)

/-- A per-edge vector read back off its layout as one row of 800000. -/
def rowOf (x : FVec Ideal ⟨2, ![1, 800000]⟩ .f32) : FVec Ideal SE .f32 :=
  fun e => x (ix2 (0 : Fin 1) (⟨(e 0).val, (e 0).isLt⟩ : Fin 800000))

/-! ## The layer normalisation of x = h + a, row by row -/

/-- Row n of h + a. -/
def row (h a : FVec Ideal SN48 .f32) (n : Fin 50000) (k : Fin 48) : EReal := h (ix2 n k) + a (ix2 n k)
/-- Its mean. -/
def mean (h a : FVec Ideal SN48 .f32) (n : Fin 50000) : EReal := Ideal.div (∑ k : Fin 48, row h a n k) w48
/-- The centred row. -/
def cen (h a : FVec Ideal SN48 .f32) (n : Fin 50000) (k : Fin 48) : EReal := row h a n k - mean h a n
/-- Its variance. -/
def var (h a : FVec Ideal SN48 .f32) (n : Fin 50000) : EReal := Ideal.div (∑ k : Fin 48, cen h a n k * cen h a n k) w48

/-- Normalised by the reciprocal square root. -/
def lnKAt (h a : FVec Ideal SN48 .f32) (γ β : FVec Ideal S48 .f32) (n : Fin 50000) (j : Fin 48) : EReal :=
  (cen h a n j * Ideal.rsqrt (var h a n + wEps)) * γ (ix1 j) + β (ix1 j)
/-- Normalised by a quotient by the square root. -/
def lnRAt (h a : FVec Ideal SN48 .f32) (γ β : FVec Ideal S48 .f32) (n : Fin 50000) (j : Fin 48) : EReal :=
  (Ideal.div (cen h a n j) (Ideal.sqrt (var h a n + wEps))) * γ (ix1 j) + β (ix1 j)

def lnK (h a : FVec Ideal SN48 .f32) (γ β : FVec Ideal S48 .f32) : FVec Ideal SN48 .f32 := fun i => lnKAt h a γ β (i 0) (i 1)
def lnR (h a : FVec Ideal SN48 .f32) (γ β : FVec Ideal S48 .f32) : FVec Ideal SN48 .f32 := fun i => lnRAt h a γ β (i 0) (i 1)

/-! ## The law -/

/-- A square is not negative on the extended reals (an infinity squares to +∞). -/
theorem mul_self_nonneg (x : EReal) : 0 ≤ x * x := by
  induction x using EReal.rec with
  | bot => simp
  | top => simp
  | coe r => rw [← EReal.coe_mul]; exact EReal.coe_nonneg.mpr (_root_.mul_self_nonneg r)

/-- The variance is not negative. -/
theorem var_nonneg (h a : FVec Ideal SN48 .f32) (n : Fin 50000) : 0 ≤ var h a n := by
  unfold var w48
  rw [w48_eq, Ideal.div_coe (by norm_num : (48 : ℝ) ≠ 0)]
  refine EReal.mul_nonneg (Finset.sum_nonneg fun k _ => mul_self_nonneg _) ?_
  exact EReal.coe_nonneg.mpr (by norm_num)

/-- One over the root, both ways: for 0 < v a product with rsqrt v is the quotient by sqrt v, on every extended real. -/
theorem mul_rsqrt_eq_div_sqrt (x v : EReal) (hv : 0 < v) : x * Ideal.rsqrt v = Ideal.div x (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := EReal.coe_pos.mp hv
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), ← EReal.coe_inv]

theorem lnK_eq_lnR (h a : FVec Ideal SN48 .f32) (γ β : FVec Ideal S48 .f32) : lnK h a γ β = lnR h a γ β := by
  funext i
  unfold lnK lnR lnKAt lnRAt
  rw [mul_rsqrt_eq_div_sqrt _ _ (lt_of_lt_of_le wEps_pos (le_add_of_nonneg_left (var_nonneg h a (i 0))))]

end Cert.Spec

end
-- ==== Proof.KHost.lean ====
/-
  What the kernel program's buffers hold where its two pallas_calls are entered and left, as functions of @main's
  argument arrays: the first call's eleven operand arrays (the host arithmetic of the argument arrays before it), the
  second call's four (two of them arguments, one the aggregation of the first call's result), and the two result arrays
  as the arrays the calls' write-backs leave.
-/
import proofs.«425709_j66537633349675_2_alg».proof.Proof.Gen.KernelIdeal.Frame
import proofs.«425709_j66537633349675_2_alg».proof.Proof.KHostDefs
import proofs.«425709_j66537633349675_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A buffer that none of a stretch's operations writes holds after the stretch what it held before. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The first call's operand arrays where it is entered -/

theorem V1_arg2 (c : Dev nD) : V1 m ρ c main_arg2 = m ((c : Thread nD τ).loc main_arg2) := by
  show StableHlo.after hostOps0 (W0 m ρ c) (Proc.devRef .tc main_arg2) = _
  host_keeps hostOps0
theorem V1_v31 (c : Dev nD) : V1 m ρ c main_v31 = hdstK (m ((c : Thread nD τ).loc main_arg0)) (m ((c : Thread nD τ).loc main_arg1)) := by
  show StableHlo.after hostOps0 (W0 m ρ c) (Proc.devRef .tc main_v31) = _
  after_results_simp
  rfl
theorem V1_v17 (c : Dev nD) : V1 m ρ c main_v17
    = eiK (m ((c : Thread nD τ).loc main_arg1)) (m ((c : Thread nD τ).loc main_arg4)) (m ((c : Thread nD τ).loc main_arg11)) := by
  show StableHlo.after hostOps0 (W0 m ρ c) (Proc.devRef .tc main_v17) = _
  after_results_simp
  rfl
theorem V1_v24 (c : Dev nD) : V1 m ρ c main_v24
    = ejK (m ((c : Thread nD τ).loc main_arg1)) (m ((c : Thread nD τ).loc main_arg4)) (m ((c : Thread nD τ).loc main_arg11)) := by
  show StableHlo.after hostOps0 (W0 m ρ c) (Proc.devRef .tc main_v24) = _
  after_results_simp
  rfl
theorem V1_v42 (c : Dev nD) : V1 m ρ c main_v42 = asRowK (m ((c : Thread nD τ).loc main_arg3)) := by
  show StableHlo.after hostOps0 (W0 m ρ c) (Proc.devRef .tc main_v42) = _
  after_results_simp
  rfl
theorem V1_v43 (c : Dev nD) : V1 m ρ c main_v43
    = asRowK (mjK (m ((c : Thread nD τ).loc main_arg1)) (m ((c : Thread nD τ).loc main_arg5))) := by
  show StableHlo.after hostOps0 (W0 m ρ c) (Proc.devRef .tc main_v43) = _
  after_results_simp
  rfl
theorem V1_v39 (c : Dev nD) : V1 m ρ c main_v39 = w1tK (m ((c : Thread nD τ).loc main_arg7)) := by
  show StableHlo.after hostOps0 (W0 m ρ c) (Proc.devRef .tc main_v39) = _
  after_results_simp
  rfl
theorem V1_arg8 (c : Dev nD) : V1 m ρ c main_arg8 = m ((c : Thread nD τ).loc main_arg8) := by
  show StableHlo.after hostOps0 (W0 m ρ c) (Proc.devRef .tc main_arg8) = _
  host_keeps hostOps0
theorem V1_v40 (c : Dev nD) : V1 m ρ c main_v40 = w2tK (m ((c : Thread nD τ).loc main_arg9)) := by
  show StableHlo.after hostOps0 (W0 m ρ c) (Proc.devRef .tc main_v40) = _
  after_results_simp
  rfl
theorem V1_arg10 (c : Dev nD) : V1 m ρ c main_arg10 = m ((c : Thread nD τ).loc main_arg10) := by
  show StableHlo.after hostOps0 (W0 m ρ c) (Proc.devRef .tc main_arg10) = _
  host_keeps hostOps0
theorem V1_v41 (c : Dev nD) : V1 m ρ c main_v41 = awtK (m ((c : Thread nD τ).loc main_arg12)) := by
  show StableHlo.after hostOps0 (W0 m ρ c) (Proc.devRef .tc main_v41) = _
  after_results_simp
  rfl

/-- A per-edge vector laid out as a row and read back is itself. -/
theorem rowOf_asRowK (x : (⟨S800000, .f32⟩ : BufTy).Contents (Elt Ideal)) : Cert.Spec.rowOf (asRowK (F := Ideal) x) = x := by
  funext e
  show broadcastInDim S1x800000 ![1] bcast_S800000_S1x800000_1 x (ix2 (0 : Fin 1) (⟨(e 0).val, (e 0).isLt⟩ : Fin 800000)) = x e
  -- the row's entry (0, e) is the vector's entry e: the only axis of the vector has 800000 places, not one
  refine broadcastInDim_apply _ _ _ _ e fun a => ?_
  have ha : a = 0 := Subsingleton.elim _ _
  subst ha
  rw [if_neg (by decide)]
  rfl

/-! ## The two result arrays -/

/-- The first call's result array where the call is left: what its write-backs leave. -/
theorem W2_v44 (c : Dev nD) : W2 m ρ c (Proc.devRef .tc main_v44) = (dat0 (V1 m ρ) c).arrAt 11 cfg0.N :=
  W2_arr m ρ c 11
/-- The second call's likewise. -/
theorem W6_v55 (c : Dev nD) : W6 m ρ c (Proc.devRef .tc main_v55) = (dat1 (V5 m ρ) c).arrAt 4 cfg1.N :=
  W6_arr m ρ c 4

/-! ## The second call's operand arrays where it is entered -/

theorem V5_arg0 (c : Dev nD) : V5 m ρ c main_arg0 = m ((c : Thread nD τ).loc main_arg0) :=
  calc W5 m ρ c (Proc.devRef .tc main_arg0)
    _ = W4 m ρ c (Proc.devRef .tc main_arg0) := by host_keeps hostOps1_2
    _ = W3 m ρ c (Proc.devRef .tc main_arg0) := by host_keeps hostOps1_1
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c : Thread nD τ).loc main_arg0) := rfl
theorem V5_arg13 (c : Dev nD) : V5 m ρ c main_arg13 = m ((c : Thread nD τ).loc main_arg13) :=
  calc W5 m ρ c (Proc.devRef .tc main_arg13)
    _ = W4 m ρ c (Proc.devRef .tc main_arg13) := by host_keeps hostOps1_2
    _ = W3 m ρ c (Proc.devRef .tc main_arg13) := by host_keeps hostOps1_1
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl
theorem V5_arg14 (c : Dev nD) : V5 m ρ c main_arg14 = m ((c : Thread nD τ).loc main_arg14) :=
  calc W5 m ρ c (Proc.devRef .tc main_arg14)
    _ = W4 m ρ c (Proc.devRef .tc main_arg14) := by host_keeps hostOps1_2
    _ = W3 m ρ c (Proc.devRef .tc main_arg14) := by host_keeps hostOps1_1
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

/-- The edges' source nodes, where the first call is entered. -/
theorem W1_v1 (c : Dev nD) : W1 m ρ c (Proc.devRef .tc main_v1) = srcK (m ((c : Thread nD τ).loc main_arg1)) := by
  show StableHlo.after hostOps0 (W0 m ρ c) (Proc.devRef .tc main_v1) = _
  after_results_simp
  rfl
/-- The target nodes' multiplicities per edge, where the first call is entered. -/
theorem W1_v38 (c : Dev nD) : W1 m ρ c (Proc.devRef .tc main_v38)
    = mjK (m ((c : Thread nD τ).loc main_arg1)) (m ((c : Thread nD τ).loc main_arg5)) := by
  show StableHlo.after hostOps0 (W0 m ρ c) (Proc.devRef .tc main_v38) = _
  after_results_simp
  rfl

/-! ### The host arithmetic between the calls, one stretch at a time, from any contents -/

section Between

variable (V : Valuation τ sig (Elt Ideal))

/-- The messages summed into their source nodes. -/
theorem sum_msg_of :
    StableHlo.after hostOps1 V (Proc.devRef .tc main_v47)
      = (Host.scatterAdd (F := Ideal) scatter_S50000x48_S800000x1_S800000x48_1_0_0_1
          (broadcastInDim S50000x48 ![] bcast_S_S50000x48 (constant S_ .f32 0x00000000#32))
          (broadcastInDim S800000x1 ![0] bcast_S800000_S800000x1_0
            (V (Proc.devRef .tc main_v1) : (⟨S800000, .i32⟩ : BufTy).Contents (Elt Ideal)))
          (V (Proc.devRef .tc main_v44) : (⟨S800000x48, .f32⟩ : BufTy).Contents (Elt Ideal))
        : (⟨S50000x48, .f32⟩ : BufTy).Contents (Elt Ideal)) := by
  after_results_simp
/-- The multiplicities summed into the source nodes. -/
theorem sum_mult_of :
    StableHlo.after hostOps1 V (Proc.devRef .tc main_v50)
      = (Host.scatterAdd (F := Ideal) scatter_S50000_S800000x1_S800000_n_0_0_1
          (broadcastInDim S50000 ![] bcast_S_S50000 (constant S_ .f32 0x00000000#32))
          (broadcastInDim S800000x1 ![0] bcast_S800000_S800000x1_0
            (V (Proc.devRef .tc main_v1) : (⟨S800000, .i32⟩ : BufTy).Contents (Elt Ideal)))
          (V (Proc.devRef .tc main_v38) : (⟨S800000, .f32⟩ : BufTy).Contents (Elt Ideal))
        : (⟨S50000, .f32⟩ : BufTy).Contents (Elt Ideal)) := by
  after_results_simp
/-- The lower bound of the divisor. -/
theorem floor_of :
    StableHlo.after hostOps1 V (Proc.devRef .tc main_cst_10)
      = (constant (F := Ideal) S_ .f32 0x322BCC77#32 : (⟨S_, .f32⟩ : BufTy).Contents (Elt Ideal)) := by
  after_results_simp
/-- The summed messages pass the clipping untouched. -/
theorem clip_keeps_sum :
    StableHlo.after hostOps1_1 V (Proc.devRef .tc main_v47) = V (Proc.devRef .tc main_v47) := by
  host_keeps hostOps1_1
/-- The summed multiplicities clipped below. -/
theorem clip_of :
    StableHlo.after hostOps1_1 V (Proc.devRef .tc main_v51)
      = (maximumf (F := Ideal) (φ := .f32)
          (broadcastInDim S50000 ![] bcast_S_S50000
            (id (V (Proc.devRef .tc main_cst_10) : (⟨S_, .f32⟩ : BufTy).Contents (Elt Ideal))))
          (V (Proc.devRef .tc main_v50) : (⟨S50000, .f32⟩ : BufTy).Contents (Elt Ideal))
        : (⟨S50000, .f32⟩ : BufTy).Contents (Elt Ideal)) := by
  after_results_simp
  rfl
/-- The quotient, the divisor laid out over the 48 channels. -/
theorem quot_of :
    StableHlo.after hostOps1_2 V (Proc.devRef .tc main_v54)
      = (Host.divf (F := Ideal) (φ := .f32) (V (Proc.devRef .tc main_v47) : (⟨S50000x48, .f32⟩ : BufTy).Contents (Elt Ideal))
          (broadcastInDim S50000x48 ![0, 1] bcast_S50000x1_S50000x48_0_1
            (broadcastInDim S50000x1 ![0] bcast_S50000_S50000x1_0
              (V (Proc.devRef .tc main_v51) : (⟨S50000, .f32⟩ : BufTy).Contents (Elt Ideal))))
        : (⟨S50000x48, .f32⟩ : BufTy).Contents (Elt Ideal)) := by
  after_results_simp

end Between

/-- The aggregated messages: the host arithmetic between the calls, of the first call's result array. -/
theorem V5_v54 (c : Dev nD) : V5 m ρ c main_v54
    = aggK (W2 m ρ c (Proc.devRef .tc main_v44)) (m ((c : Thread nD τ).loc main_arg1)) (m ((c : Thread nD τ).loc main_arg5)) := by
  refine (quot_of (W4 m ρ c)).trans ?_
  rw [show W4 m ρ c (Proc.devRef .tc main_v47) = _ from clip_keeps_sum (W3 m ρ c),
    show W4 m ρ c (Proc.devRef .tc main_v51) = _ from clip_of (W3 m ρ c),
    show W3 m ρ c (Proc.devRef .tc main_v47) = _ from sum_msg_of (W2 m ρ c),
    show W3 m ρ c (Proc.devRef .tc main_v50) = _ from sum_mult_of (W2 m ρ c),
    show W3 m ρ c (Proc.devRef .tc main_cst_10) = _ from floor_of (W2 m ρ c),
    W2_of_ne m ρ c main_v1 (by decide), W2_of_ne m ρ c main_v38 (by decide), W1_v1, W1_v38]
  unfold aggK rawCol
  with_reducible rfl

end Cert.KernelIdeal.HostValue

end
-- ==== Proof.KLn.lean ====
/-
  The second pallas_call's result array, whatever the buffers hold when the call is entered: every block of 5000 node
  rows is the layer normalisation (by the reciprocal square root) of the same rows of the sum of its first two operand
  arrays, scaled and shifted by the third and fourth; the ten blocks tile the 50000 rows.
-/
import proofs.«425709_j66537633349675_2_alg».proof.Proof.Gen.KernelIdeal.Frame
import proofs.«425709_j66537633349675_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LnValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! ## Three layout readings the block's arithmetic needs: a column out of a vector, a column spread over the
lanes, and a sum along the lanes -/

/-- A vector of a entries reshaped to a column [a, 1] reads, at (i, u), entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an [a, b] block of extended reals reads, at row p, the sum of that row's b entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src ?_
  funext d
  match d with
  | ⟨0, _⟩ => exact Fin.ext rfl
  | ⟨1, _⟩ => exact Fin.ext rfl

/-! ## One row's normalisation, and the block's arithmetic at an index -/

/-- The reciprocal square root of a block, at an index, is the reciprocal square root of the entry there. -/
theorem rsqrt_apply {s : Shape} (v : FVec Ideal s .f32) (i : s.Idx) : rsqrt v i = Ideal.rsqrt (v i) := rfl

/-- The normalisation of one row r of 48 extended reals, read at lane j: centred by the row's mean, times the reciprocal
    square root of (the mean square of the centred row plus the constant), then scaled by γ and shifted by β. -/
def lnRow (r : Fin 48 → EReal) (γ β : EReal) (j : Fin 48) : EReal :=
  ((r j - Ideal.div (∑ k : Fin 48, r k) Cert.Spec.w48)
      * Ideal.rsqrt (Ideal.div (∑ k : Fin 48, (r k - Ideal.div (∑ k' : Fin 48, r k') Cert.Spec.w48)
          * (r k - Ideal.div (∑ k' : Fin 48, r k') Cert.Spec.w48)) Cert.Spec.w48 + Cert.Spec.wEps)) * γ + β

/-- The specification's entry (n, j) is that normalisation of row n of the sum of the two arrays. -/
theorem lnKAt_eq_lnRow (h a : FVec Ideal Cert.Spec.SN48 .f32) (γ β : FVec Ideal Cert.Spec.S48 .f32) (n : Fin 50000) (j : Fin 48) :
    Cert.Spec.lnKAt h a γ β n j = lnRow (Cert.Spec.row h a n) (γ (ix1 j)) (β (ix1 j)) j := rfl

/-- What the body computes from its four blocks, at row p and lane j: the normalisation of row p of the sum of the
    first two blocks, scaled and shifted by lane j of the third and fourth. -/
theorem pay_apply (x0 x1 : Vec Ideal S5000x48 .f32) (g b : Vec Ideal S48 .f32) (p : Fin 5000) (j : Fin 48) :
    Gen.k1_pay1 (F := Ideal) x0 x1 g b (ix2 p j)
      = lnRow (fun k => x0 (ix2 p k) + x1 (ix2 p k)) (g (ix1 j)) (b (ix1 j)) j := by
  unfold Gen.k1_pay1 lnRow
  simp only [shapeCast_self, addf_apply, mulf_apply, subf_apply, divf_apply, broadcastTo_a1_ab_apply, shapeCast_a_a1_apply,
    laneSum_apply, broadcast_apply, broadcastTo_1b_ab_apply, shapeCast_a_1a_apply, rsqrt_apply]
  rw [laneSum_apply (addf x0 x1), laneSum_apply]
  simp only [addf_apply, mulf_apply, subf_apply, divf_apply, broadcastTo_a1_ab_apply, shapeCast_a_a1_apply, broadcast_apply]
  rw [laneSum_apply (addf x0 x1)]
  simp only [addf_apply]
  rfl

variable (V : (c : Dev nD) → (b : Ref sig .tc) → Buf (Elt Ideal) ((c : Thread nD τ).loc b))

/-! ## From the ten blocks to the array -/

theorem zero2 : (![0, 0] : Fin 2 → Nat) = fun _ => 0 := funext fun a => by fin_cases a <;> rfl
theorem zero1 : (![0] : Fin 1 → Nat) = fun _ => 0 := funext fun a => by fin_cases a <;> rfl

/-- The index maps over the ten grid points: the two row-blocked inputs and the output sit at block (t, 0), the scale and
    the shift at block 0. -/
theorem idx_facts : ∀ t : Fin cfg1.N, win1_4.index t (0 : Fin 2) = t.val
    ∧ win1_4.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 1) = 0
    ∧ win1_3.index t (0 : Fin 1) = 0 :=
  (by decide +kernel : ∀ t : Fin grid1.N, _)

/-- Changing a row, a scale or a shift to an equal one does not change the row's normalisation. -/
theorem lnRow_congr {r r' : Fin 48 → EReal} {γ γ' β β' : EReal} (j : Fin 48) (hr : ∀ k, r k = r' k) (hγ : γ = γ')
    (hβ : β = β') : lnRow r γ β j = lnRow r' γ' β' j := by
  obtain rfl : r = r' := funext hr
  subst hγ hβ
  rfl

/-- What grid point t writes back is block t of the specification's array of the four operand arrays. -/
theorem flushed_eq (c : Dev nD) (t : Fin cfg1.N) :
    (dat1 (F := Ideal) V c).flushed 4 t = ((cfg1.win 4).blk t).view.read (Elt Ideal)
      (Cert.Spec.lnK (V c main_arg0) (V c main_v54) (V c main_arg13) (V c main_arg14)) := by
  show (cfg1.win 4).cut (grid1.coords t) ((dat1 V c).after 4 t) = _
  rw [after1_4]
  unfold out1_4
  rw [View.canon_unit_zero zero2]
  simp only [View.ld_unit_zero (S := S5000x48) zero2, View.ld_unit_zero (S := S48) zero1]
  obtain ⟨e40, e41, e00, e01, e10, e11, e2, e3⟩ := idx_facts t
  refine funext fun (y : S5000x48.Idx) => ?_
  obtain ⟨p, j, rfl⟩ : ∃ (p : Fin 5000) (j : Fin 48), y = ix2 p j := ⟨y 0, y 1, eq_ix2 y⟩
  have hN : cfg1.N = 10 := N_1
  have hn : t.val * 5000 + p.val < 50000 := by have := t.isLt; have := p.isLt; omega
  show k1_pay1 (F := Ideal) (iblk1 V c 0 t) (iblk1 V c 1 t) (iblk1 V c 2 t) (iblk1 V c 3 t) (ix2 p j)
      = Cert.Spec.lnK (V c main_arg0) (V c main_v54) (V c main_arg13) (V c main_arg14) (((cfg1.win 4).blk t).view.emb (ix2 p j))
  have hi : ((cfg1.win 4).blk t).view.emb (ix2 p j) = ix2 (⟨t.val * 5000 + p.val, hn⟩ : Fin 50000) j := by
    funext a; apply Fin.ext
    match a with
    | ⟨0, _⟩ => show win1_4.index t (0 : Fin 2) * 5000 + 1 * p.val = t.val * 5000 + p.val; omega
    | ⟨1, _⟩ => show win1_4.index t (1 : Fin 2) * 48 + 1 * j.val = j.val; omega
  rw [hi]
  refine (pay_apply _ _ _ _ p j).trans ((lnRow_congr j (fun k => ?_) ?_ ?_).trans (lnKAt_eq_lnRow _ _ _ _ _ j).symm)
  · have h0 : (iblk1 V c 0 t (ix2 p k) : EReal) = V c main_arg0 (ix2 (⟨t.val * 5000 + p.val, hn⟩ : Fin 50000) k) := by
      show V c main_arg0 (((cfg1.win 0).blk t).view.emb (ix2 p k)) = _
      refine congrArg _ (funext fun a => Fin.ext ?_)
      match a with
      | ⟨0, _⟩ => show win1_0.index t (0 : Fin 2) * 5000 + 1 * p.val = t.val * 5000 + p.val; omega
      | ⟨1, _⟩ => show win1_0.index t (1 : Fin 2) * 48 + 1 * k.val = k.val; omega
    have h1 : (iblk1 V c 1 t (ix2 p k) : EReal) = V c main_v54 (ix2 (⟨t.val * 5000 + p.val, hn⟩ : Fin 50000) k) := by
      show V c main_v54 (((cfg1.win 1).blk t).view.emb (ix2 p k)) = _
      refine congrArg _ (funext fun a => Fin.ext ?_)
      match a with
      | ⟨0, _⟩ => show win1_1.index t (0 : Fin 2) * 5000 + 1 * p.val = t.val * 5000 + p.val; omega
      | ⟨1, _⟩ => show win1_1.index t (1 : Fin 2) * 48 + 1 * k.val = k.val; omega
    exact congrArg₂ (fun (u v : EReal) => u + v) h0 h1
  · show V c main_arg13 (((cfg1.win 2).blk t).view.emb (ix1 j)) = V c main_arg13 (ix1 j)
    refine congrArg _ (funext fun a => Fin.ext ?_)
    match a with
    | ⟨0, _⟩ => show win1_2.index t (0 : Fin 1) * 48 + 1 * j.val = j.val; omega
  · show V c main_arg14 (((cfg1.win 3).blk t).view.emb (ix1 j)) = V c main_arg14 (ix1 j)
    refine congrArg _ (funext fun a => Fin.ext ?_)
    match a with
    | ⟨0, _⟩ => show win1_3.index t (0 : Fin 1) * 48 + 1 * j.val = j.val; omega

/-- An entry of the array is in grid point t's block exactly when each of its coordinates is in the block's range. -/
theorem mem_blk (t : Fin cfg1.N) (i : S50000x48.Idx) :
    i ∈ ((cfg1.win 4).blk t).view.set ↔ ∀ a : Fin 2, win1_4.index t a * S5000x48.size a ≤ (i a).val
      ∧ (i a).val < win1_4.index t a * S5000x48.size a + S5000x48.size a := by
  show i ∈ ((View.whole main_v55).slice (win1_4.rect t)).set ↔ _
  rw [View.set_slice_whole, Rect.mem_set_unit]
  exact Iff.rfl

/-- Row n of the array lies in the block of grid point n / 5000: the ten blocks tile the 50000 rows. -/
theorem cover (i : S50000x48.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 48 := (i 1).isLt
  have ht : (i 0).val / 5000 < cfg1.N := by omega
  obtain ⟨e40, e41, -⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    have e : win1_4.index ⟨(i 0).val / 5000, ht⟩ (0 : Fin 2) = (i 0).val / 5000 := e40
    omega
  | ⟨1, _⟩ =>
    show win1_4.index ⟨(i 0).val / 5000, ht⟩ (1 : Fin 2) * 48 ≤ (i 1).val
      ∧ (i 1).val < win1_4.index ⟨(i 0).val / 5000, ht⟩ (1 : Fin 2) * 48 + 48
    omega

/-- The array the second call leaves: the layer normalisation of (operand 0 + operand 1), row by row. -/
theorem ln_final (c : Dev nD) :
    (dat1 (F := Ideal) V c).arrAt 4 cfg1.N
      = Cert.Spec.lnK (V c main_arg0) (V c main_v54) (V c main_arg13) (V c main_arg14) :=
  (dat1 V c).arrAt_eq_of_cover 4 _ (fun t _ => flushed_eq V c t) cover

end Cert.KernelIdeal.LnValue

end
-- ==== Proof.KEdgePay.lean ====
/-
  The edge kernel's body at one row of a block. For a block of 3200 edges (their feature rows, the target node's
  features, the two end points' embeddings, the distances and multiplicities as rows of length 3200) and the whole weight
  arrays, the value the body stores at row p, channel j is the message of that row: the two-layer filter of its
  features, plus the bilinear form of its embeddings, times the target's feature, times cutoff times multiplicity.
-/
import proofs.«425709_j66537633349675_2_alg».proof.Proof.Gen.KernelIdeal.Skeleton
import proofs.«425709_j66537633349675_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeValue

open Cert.KernelIdeal Cert.KernelIdeal.Gen Idealize.ShloMosaic Idealize.ShloMosaic.TcCoe Idealize.ShloMosaic.ValueIdx Idealize.SL.Sem

/-! ## The three block products, read at an index

Each is a product into the zero accumulator with one contracted axis: at an output index it is the sum over
that axis of the products of the operands' entries. -/

theorem lhs_a_0 (i : S3200x48.Idx) (q : dot_S3200x40_S40x48_S3200x48_1_0_0_1_n_n.contr.Idx) :
    (dot_S3200x40_S40x48_S3200x48_1_0_0_1_n_n.lhsIdx i q 0).val = (i 0).val := by
  unfold DotDims.lhsIdx
  rw [dif_neg (show ¬(0 : Fin S3200x40.rank) ∈ dot_S3200x40_S40x48_S3200x48_1_0_0_1_n_n.lhsBatch by decide), dif_pos (show (0 : Fin S3200x40.rank) ∈ dot_S3200x40_S40x48_S3200x48_1_0_0_1_n_n.lhsNonContracting by decide)]
  rfl
theorem lhs_a_1 (i : S3200x48.Idx) (q : dot_S3200x40_S40x48_S3200x48_1_0_0_1_n_n.contr.Idx) :
    (dot_S3200x40_S40x48_S3200x48_1_0_0_1_n_n.lhsIdx i q 1).val = (q ⟨0, by decide⟩).val :=
  dot_S3200x40_S40x48_S3200x48_1_0_0_1_n_n.lhsIdx_val_of_single rfl i q
theorem rhs_a_0 (i : S3200x48.Idx) (q : dot_S3200x40_S40x48_S3200x48_1_0_0_1_n_n.contr.Idx) :
    (dot_S3200x40_S40x48_S3200x48_1_0_0_1_n_n.rhsIdx i q 0).val = (q ⟨0, by decide⟩).val :=
  dot_S3200x40_S40x48_S3200x48_1_0_0_1_n_n.rhsIdx_val_of_single rfl i q
theorem rhs_a_1 (i : S3200x48.Idx) (q : dot_S3200x40_S40x48_S3200x48_1_0_0_1_n_n.contr.Idx) :
    (dot_S3200x40_S40x48_S3200x48_1_0_0_1_n_n.rhsIdx i q 1).val = (i 1).val := by
  unfold DotDims.rhsIdx
  rw [dif_neg (show ¬(1 : Fin S40x48.rank) ∈ dot_S3200x40_S40x48_S3200x48_1_0_0_1_n_n.rhsBatch by decide), dif_pos (show (1 : Fin S40x48.rank) ∈ dot_S3200x40_S40x48_S3200x48_1_0_0_1_n_n.rhsNonContracting by decide)]
  rfl

/-- Edge features by the first layer's weights: the sum over the 40 radial features. -/
theorem matmul_a_apply (x : FVec Ideal S3200x40 .bf16) (y : FVec Ideal S40x48 .bf16) (p : Fin 3200) (k : Fin 48) :
    matmul dot_S3200x40_S40x48_S3200x48_1_0_0_1_n_n none x y (constant (F := Ideal) S3200x48 .f32 0x00000000#32) (ix2 p k)
      = ∑ r : Fin 40, x (ix2 p r) * y (ix2 r k) := by
  simp only [matmul]
  rw [Ideal.matmul_constant_zero_apply, ← Equiv.sum_comp (ValueIdx.contrEquiv1 dot_S3200x40_S40x48_S3200x48_1_0_0_1_n_n 40 rfl rfl).symm]
  refine Finset.sum_congr rfl fun r _ => ?_
  have hk := ValueIdx.contrEquiv1_symm_val dot_S3200x40_S40x48_S3200x48_1_0_0_1_n_n 40 rfl rfl r
  have el : dot_S3200x40_S40x48_S3200x48_1_0_0_1_n_n.lhsIdx (ix2 p k) ((ValueIdx.contrEquiv1 dot_S3200x40_S40x48_S3200x48_1_0_0_1_n_n 40 rfl rfl).symm r) = ix2 p r := funext fun a => Fin.ext (by
    match a with
    | ⟨0, _⟩ => exact lhs_a_0 _ _
    | ⟨1, _⟩ => exact (lhs_a_1 _ _).trans hk)
  have er : dot_S3200x40_S40x48_S3200x48_1_0_0_1_n_n.rhsIdx (ix2 p k) ((ValueIdx.contrEquiv1 dot_S3200x40_S40x48_S3200x48_1_0_0_1_n_n 40 rfl rfl).symm r) = ix2 r k := funext fun a => Fin.ext (by
    match a with
    | ⟨0, _⟩ => exact (rhs_a_0 _ _).trans hk
    | ⟨1, _⟩ => exact rhs_a_1 _ _)
  rw [el, er]

theorem lhs_b_0 (i : S3200x48.Idx) (q : dot_S3200x48_S48x48_S3200x48_1_0_0_1_n_n.contr.Idx) :
    (dot_S3200x48_S48x48_S3200x48_1_0_0_1_n_n.lhsIdx i q 0).val = (i 0).val := by
  unfold DotDims.lhsIdx
  rw [dif_neg (show ¬(0 : Fin S3200x48.rank) ∈ dot_S3200x48_S48x48_S3200x48_1_0_0_1_n_n.lhsBatch by decide), dif_pos (show (0 : Fin S3200x48.rank) ∈ dot_S3200x48_S48x48_S3200x48_1_0_0_1_n_n.lhsNonContracting by decide)]
  rfl
theorem lhs_b_1 (i : S3200x48.Idx) (q : dot_S3200x48_S48x48_S3200x48_1_0_0_1_n_n.contr.Idx) :
    (dot_S3200x48_S48x48_S3200x48_1_0_0_1_n_n.lhsIdx i q 1).val = (q ⟨0, by decide⟩).val :=
  dot_S3200x48_S48x48_S3200x48_1_0_0_1_n_n.lhsIdx_val_of_single rfl i q
theorem rhs_b_0 (i : S3200x48.Idx) (q : dot_S3200x48_S48x48_S3200x48_1_0_0_1_n_n.contr.Idx) :
    (dot_S3200x48_S48x48_S3200x48_1_0_0_1_n_n.rhsIdx i q 0).val = (q ⟨0, by decide⟩).val :=
  dot_S3200x48_S48x48_S3200x48_1_0_0_1_n_n.rhsIdx_val_of_single rfl i q
theorem rhs_b_1 (i : S3200x48.Idx) (q : dot_S3200x48_S48x48_S3200x48_1_0_0_1_n_n.contr.Idx) :
    (dot_S3200x48_S48x48_S3200x48_1_0_0_1_n_n.rhsIdx i q 1).val = (i 1).val := by
  unfold DotDims.rhsIdx
  rw [dif_neg (show ¬(1 : Fin S48x48.rank) ∈ dot_S3200x48_S48x48_S3200x48_1_0_0_1_n_n.rhsBatch by decide), dif_pos (show (1 : Fin S48x48.rank) ∈ dot_S3200x48_S48x48_S3200x48_1_0_0_1_n_n.rhsNonContracting by decide)]
  rfl

/-- Activations by the second layer's weights: the sum over the 48 hidden units. -/
theorem matmul_b_apply (x : FVec Ideal S3200x48 .bf16) (y : FVec Ideal S48x48 .bf16) (p : Fin 3200) (k : Fin 48) :
    matmul dot_S3200x48_S48x48_S3200x48_1_0_0_1_n_n none x y (constant (F := Ideal) S3200x48 .f32 0x00000000#32) (ix2 p k)
      = ∑ r : Fin 48, x (ix2 p r) * y (ix2 r k) := by
  simp only [matmul]
  rw [Ideal.matmul_constant_zero_apply, ← Equiv.sum_comp (ValueIdx.contrEquiv1 dot_S3200x48_S48x48_S3200x48_1_0_0_1_n_n 48 rfl rfl).symm]
  refine Finset.sum_congr rfl fun r _ => ?_
  have hk := ValueIdx.contrEquiv1_symm_val dot_S3200x48_S48x48_S3200x48_1_0_0_1_n_n 48 rfl rfl r
  have el : dot_S3200x48_S48x48_S3200x48_1_0_0_1_n_n.lhsIdx (ix2 p k) ((ValueIdx.contrEquiv1 dot_S3200x48_S48x48_S3200x48_1_0_0_1_n_n 48 rfl rfl).symm r) = ix2 p r := funext fun a => Fin.ext (by
    match a with
    | ⟨0, _⟩ => exact lhs_b_0 _ _
    | ⟨1, _⟩ => exact (lhs_b_1 _ _).trans hk)
  have er : dot_S3200x48_S48x48_S3200x48_1_0_0_1_n_n.rhsIdx (ix2 p k) ((ValueIdx.contrEquiv1 dot_S3200x48_S48x48_S3200x48_1_0_0_1_n_n 48 rfl rfl).symm r) = ix2 r k := funext fun a => Fin.ext (by
    match a with
    | ⟨0, _⟩ => exact (rhs_b_0 _ _).trans hk
    | ⟨1, _⟩ => exact rhs_b_1 _ _)
  rw [el, er]

theorem lhs_c_0 (i : S3200x32.Idx) (q : dot_S3200x32_S32x32_S3200x32_1_0_0_1_n_n.contr.Idx) :
    (dot_S3200x32_S32x32_S3200x32_1_0_0_1_n_n.lhsIdx i q 0).val = (i 0).val := by
  unfold DotDims.lhsIdx
  rw [dif_neg (show ¬(0 : Fin S3200x32.rank) ∈ dot_S3200x32_S32x32_S3200x32_1_0_0_1_n_n.lhsBatch by decide), dif_pos (show (0 : Fin S3200x32.rank) ∈ dot_S3200x32_S32x32_S3200x32_1_0_0_1_n_n.lhsNonContracting by decide)]
  rfl
theorem lhs_c_1 (i : S3200x32.Idx) (q : dot_S3200x32_S32x32_S3200x32_1_0_0_1_n_n.contr.Idx) :
    (dot_S3200x32_S32x32_S3200x32_1_0_0_1_n_n.lhsIdx i q 1).val = (q ⟨0, by decide⟩).val :=
  dot_S3200x32_S32x32_S3200x32_1_0_0_1_n_n.lhsIdx_val_of_single rfl i q
theorem rhs_c_0 (i : S3200x32.Idx) (q : dot_S3200x32_S32x32_S3200x32_1_0_0_1_n_n.contr.Idx) :
    (dot_S3200x32_S32x32_S3200x32_1_0_0_1_n_n.rhsIdx i q 0).val = (q ⟨0, by decide⟩).val :=
  dot_S3200x32_S32x32_S3200x32_1_0_0_1_n_n.rhsIdx_val_of_single rfl i q
theorem rhs_c_1 (i : S3200x32.Idx) (q : dot_S3200x32_S32x32_S3200x32_1_0_0_1_n_n.contr.Idx) :
    (dot_S3200x32_S32x32_S3200x32_1_0_0_1_n_n.rhsIdx i q 1).val = (i 1).val := by
  unfold DotDims.rhsIdx
  rw [dif_neg (show ¬(1 : Fin S32x32.rank) ∈ dot_S3200x32_S32x32_S3200x32_1_0_0_1_n_n.rhsBatch by decide), dif_pos (show (1 : Fin S32x32.rank) ∈ dot_S3200x32_S32x32_S3200x32_1_0_0_1_n_n.rhsNonContracting by decide)]
  rfl

/-- Embeddings by the adaptation matrix: the sum over the 32 embedding coordinates. -/
theorem matmul_c_apply (x : FVec Ideal S3200x32 .bf16) (y : FVec Ideal S32x32 .bf16) (p : Fin 3200) (k : Fin 32) :
    matmul dot_S3200x32_S32x32_S3200x32_1_0_0_1_n_n none x y (constant (F := Ideal) S3200x32 .f32 0x00000000#32) (ix2 p k)
      = ∑ r : Fin 32, x (ix2 p r) * y (ix2 r k) := by
  simp only [matmul]
  rw [Ideal.matmul_constant_zero_apply, ← Equiv.sum_comp (ValueIdx.contrEquiv1 dot_S3200x32_S32x32_S3200x32_1_0_0_1_n_n 32 rfl rfl).symm]
  refine Finset.sum_congr rfl fun r _ => ?_
  have hk := ValueIdx.contrEquiv1_symm_val dot_S3200x32_S32x32_S3200x32_1_0_0_1_n_n 32 rfl rfl r
  have el : dot_S3200x32_S32x32_S3200x32_1_0_0_1_n_n.lhsIdx (ix2 p k) ((ValueIdx.contrEquiv1 dot_S3200x32_S32x32_S3200x32_1_0_0_1_n_n 32 rfl rfl).symm r) = ix2 p r := funext fun a => Fin.ext (by
    match a with
    | ⟨0, _⟩ => exact lhs_c_0 _ _
    | ⟨1, _⟩ => exact (lhs_c_1 _ _).trans hk)
  have er : dot_S3200x32_S32x32_S3200x32_1_0_0_1_n_n.rhsIdx (ix2 p k) ((ValueIdx.contrEquiv1 dot_S3200x32_S32x32_S3200x32_1_0_0_1_n_n 32 rfl rfl).symm r) = ix2 r k := funext fun a => Fin.ext (by
    match a with
    | ⟨0, _⟩ => exact (rhs_c_0 _ _).trans hk
    | ⟨1, _⟩ => exact rhs_c_1 _ _)
  rw [el, er]

/-! ## Column layouts read at an index -/

/-- A vector cast to one column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a 3200 by 32 block, read at row `p`. -/
theorem rowsum_apply (x : FVec Ideal S3200x32 .f32) (hφ : FKind.Formats .f32)
    (hacc : (0x00000000#32 : BitVec 32) = 0x00000000#32) (p : Fin 3200) :
    multiReduction (F := Ideal) .add [1] S3200 x 0x00000000#32 reduces_S3200x32_S3200 hφ hacc (ix1 p)
      = ∑ g : Fin 32, x (ix2 p g) := by
  refine (Ideal.multiReduction_add_single x 0x00000000#32 reduces_S3200x32_S3200 hφ hacc (ix1 p)).trans ?_
  refine Finset.sum_congr rfl fun g _ => congrArg x ?_
  funext a; apply Fin.ext
  match a with
  | ⟨0, _⟩ => rfl
  | ⟨1, _⟩ => rfl

/-- The logistic function of a block, read at an index. -/
theorem logistic_at {s : Shape} {φ : FTy} (x : FVec Ideal s φ) (i : s.Idx) : logistic x i = Ideal.logistic (x i) := rfl

/-- A row of 3200 turned into a column reads, at `(p, u)`, the row's entry `p`. -/
theorem col_of_row_apply {α : Type} (x : S1x3200.Idx → α) (p : Fin 3200) (u : Fin 1) :
    transpose S3200x1 [1, 0] x transposes_S1x3200_p1_0_S3200x1 (ix2 p u) = x (ix2 (0 : Fin 1) p) :=
  transpose_apply _ x _ _ _ fun c => match c with
    | ⟨0, _⟩ => rfl
    | ⟨1, _⟩ => by show (0 : ℕ) = u.val; omega

/-- The gate the first part of the body computes, at row p and channel j: the filter's second layer over the
    activations of its first, plus the bilinear form of the two embeddings. -/
theorem gate_at (ea : FVec Ideal S3200x40 .f32) (ei ej : FVec Ideal S3200x32 .f32)
    (w1 : FVec Ideal S40x48 .f32) (b1 : FVec Ideal S48 .f32) (w2 : FVec Ideal S48x48 .f32) (b2 : FVec Ideal S48 .f32) (aw : FVec Ideal S32x32 .f32)
    (p : Fin 3200) (j : Fin 48) :
    k0_pay2 (F := Ideal) ea w1 b1 w2 b2 ej aw ei (ix2 p j)
      = ((∑ k : Fin 48, Cert.Spec.silu ((∑ r : Fin 40, ea (ix2 p r) * w1 (ix2 r k)) + b1 (ix1 k)) * w2 (ix2 k j)) + b2 (ix1 j))
        + (∑ g : Fin 32, ei (ix2 p g) * (∑ g' : Fin 32, ej (ix2 p g') * aw (ix2 g' g))) := by
  unfold k0_pay2
  dsimp only
  simp only [addf_apply, mulf_apply, logistic_at, matmul_a_apply, matmul_b_apply, truncf_apply, shapeCast_self,
    broadcastTo_1b_ab_apply, shapeCast_a_1a_apply, broadcastTo_a1_ab_apply, shapeCast_a_a1_apply]
  rw [rowsum_apply]
  simp only [mulf_apply, matmul_c_apply, truncf_apply]
  rfl

/-- The message of row p of a block, channel j, from the block's rows and the weights. -/
def msgBlk (ea : Vec Ideal S3200x40 .f32) (hd : Vec Ideal S3200x48 .f32) (ei ej : Vec Ideal S3200x32 .f32) (di mu : Vec Ideal S1x3200 .f32)
    (w1 : Vec Ideal S40x48 .f32) (b1 : Vec Ideal S48 .f32) (w2 : Vec Ideal S48x48 .f32) (b2 : Vec Ideal S48 .f32) (aw : Vec Ideal S32x32 .f32)
    (p : Fin 3200) (j : Fin 48) : EReal :=
  ((((∑ k : Fin 48, Cert.Spec.silu ((∑ r : Fin 40, ea (ix2 p r) * w1 (ix2 r k)) + b1 (ix1 k)) * w2 (ix2 k j)) + b2 (ix1 j))
      + (∑ g : Fin 32, ei (ix2 p g) * (∑ g' : Fin 32, ej (ix2 p g') * aw (ix2 g' g))))
    * hd (ix2 p j)) * (Cert.Spec.cutoff (di (ix2 (0 : Fin 1) p)) * mu (ix2 (0 : Fin 1) p))

/-- The body's stored value at (p, j) is that message. -/
theorem pay_at (ea : Vec Ideal S3200x40 .f32) (hd : Vec Ideal S3200x48 .f32) (ei ej : Vec Ideal S3200x32 .f32) (di mu : Vec Ideal S1x3200 .f32)
    (w1 : Vec Ideal S40x48 .f32) (b1 : Vec Ideal S48 .f32) (w2 : Vec Ideal S48x48 .f32) (b2 : Vec Ideal S48 .f32) (aw : Vec Ideal S32x32 .f32)
    (p : Fin 3200) (j : Fin 48) :
    k0_pay1 (F := Ideal) (k0_pay2 (F := Ideal) ea w1 b1 w2 b2 ej aw ei) (k0_pay3 (F := Ideal) di) (k0_pay4 (F := Ideal)) mu hd (ix2 p j)
      = msgBlk ea hd ei ej di mu w1 b1 w2 b2 aw p j := by
  unfold k0_pay1 k0_pay3 k0_pay4 msgBlk
  dsimp only
  simp only [mulf_apply, shapeCast_self, broadcastTo_a1_ab_apply, gate_at]
  rw [col_of_row_apply]
  rfl

end Cert.KernelIdeal.EdgeValue

end
-- ==== Proof.KEdge.lean ====
/-
  The first pallas_call's result array, whatever the buffers hold when the call is entered: every block of 3200 edges is
  the message function of the same edges' rows of the operand arrays (and of the whole weight arrays); the 250 blocks
  tile the 800000 edges.
-/
import proofs.«425709_j66537633349675_2_alg».proof.Proof.Gen.KernelIdeal.Frame
import proofs.«425709_j66537633349675_2_alg».proof.Proof.Spec
import proofs.«425709_j66537633349675_2_alg».proof.Proof.KEdgePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace ToArray

/-- The zero offsets of a rank-2 rectangle, as a constant function. -/
theorem zeros2 : (![0, 0] : Fin 2 → Nat) = fun _ => 0 := funext fun a => match a with | ⟨0, _⟩ => rfl | ⟨1, _⟩ => rfl
/-- The zero offset of a rank-1 rectangle, as a constant function. -/
theorem zeros1 : (![0] : Fin 1 → Nat) = fun _ => 0 := funext fun a => match a with | ⟨0, _⟩ => rfl

/-- The block index of every window at every point of the grid: the per-edge arrays move with the point along the edge axis,
    the weight arrays stay at block 0. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- The edge that row p of the block of point t is. -/
def edgeOf (t : Fin cfg0.N) (p : Fin 3200) : Fin 800000 :=
  ⟨t.val * 3200 + p.val, by have ht : t.val < 250 := lt_of_lt_of_eq t.isLt N_0; have hp := p.isLt; omega⟩

/-- Row p of point t's block of the edge features is the features' row at that edge. -/
theorem blk0_at (c : Dev nD) (t : Fin cfg0.N) (p : Fin 3200) (r : Fin 40) :
    (iblk0 V c 0 t : Vec Ideal S3200x40 .f32) (ix2 p r) = V c main_arg2 (ix2 (edgeOf t p) r) := by
  obtain ⟨⟨e0, e1⟩, -⟩ := blockIndex t
  show V c main_arg2 (((cfg0.win 0).blk t).view.emb (ix2 p r)) = _
  refine congrArg (V c main_arg2) (funext fun a => Fin.ext ?_)
  match a with
  | ⟨0, _⟩ => show win0_0.index t (0 : Fin 2) * 3200 + 1 * p.val = t.val * 3200 + p.val; omega
  | ⟨1, _⟩ => show win0_0.index t (1 : Fin 2) * 40 + 1 * r.val = r.val; omega

/-- Row p of point t's block of the receiving nodes' features is their row at that edge. -/
theorem blk1_at (c : Dev nD) (t : Fin cfg0.N) (p : Fin 3200) (r : Fin 48) :
    (iblk0 V c 1 t : Vec Ideal S3200x48 .f32) (ix2 p r) = V c main_v31 (ix2 (edgeOf t p) r) := by
  obtain ⟨-, ⟨e0, e1⟩, -⟩ := blockIndex t
  show V c main_v31 (((cfg0.win 1).blk t).view.emb (ix2 p r)) = _
  refine congrArg (V c main_v31) (funext fun a => Fin.ext ?_)
  match a with
  | ⟨0, _⟩ => show win0_1.index t (0 : Fin 2) * 3200 + 1 * p.val = t.val * 3200 + p.val; omega
  | ⟨1, _⟩ => show win0_1.index t (1 : Fin 2) * 48 + 1 * r.val = r.val; omega

/-- Row p of point t's block of the first end points' embeddings is their row at that edge. -/
theorem blk2_at (c : Dev nD) (t : Fin cfg0.N) (p : Fin 3200) (r : Fin 32) :
    (iblk0 V c 2 t : Vec Ideal S3200x32 .f32) (ix2 p r) = V c main_v17 (ix2 (edgeOf t p) r) := by
  obtain ⟨-, -, ⟨e0, e1⟩, -⟩ := blockIndex t
  show V c main_v17 (((cfg0.win 2).blk t).view.emb (ix2 p r)) = _
  refine congrArg (V c main_v17) (funext fun a => Fin.ext ?_)
  match a with
  | ⟨0, _⟩ => show win0_2.index t (0 : Fin 2) * 3200 + 1 * p.val = t.val * 3200 + p.val; omega
  | ⟨1, _⟩ => show win0_2.index t (1 : Fin 2) * 32 + 1 * r.val = r.val; omega

/-- Row p of point t's block of the second end points' embeddings is their row at that edge. -/
theorem blk3_at (c : Dev nD) (t : Fin cfg0.N) (p : Fin 3200) (r : Fin 32) :
    (iblk0 V c 3 t : Vec Ideal S3200x32 .f32) (ix2 p r) = V c main_v24 (ix2 (edgeOf t p) r) := by
  obtain ⟨-, -, -, ⟨e0, e1⟩, -⟩ := blockIndex t
  show V c main_v24 (((cfg0.win 3).blk t).view.emb (ix2 p r)) = _
  refine congrArg (V c main_v24) (funext fun a => Fin.ext ?_)
  match a with
  | ⟨0, _⟩ => show win0_3.index t (0 : Fin 2) * 3200 + 1 * p.val = t.val * 3200 + p.val; omega
  | ⟨1, _⟩ => show win0_3.index t (1 : Fin 2) * 32 + 1 * r.val = r.val; omega

/-- Entry p of point t's block of the lengths, laid out as one row, is the length of that edge. -/
theorem blk4_at (c : Dev nD) (t : Fin cfg0.N) (p : Fin 3200) :
    (iblk0 V c 4 t : Vec Ideal S1x3200 .f32) (ix2 (0 : Fin 1) p) = V c main_v42 (ix2 (0 : Fin 1) (edgeOf t p)) := by
  obtain ⟨-, -, -, -, ⟨e0, e1⟩, -⟩ := blockIndex t
  show V c main_v42 (((cfg0.win 4).blk t).view.emb (ix2 (0 : Fin 1) p)) = _
  refine congrArg (V c main_v42) (funext fun a => Fin.ext ?_)
  match a with
  | ⟨0, _⟩ => show win0_4.index t (0 : Fin 2) * 1 + 1 * 0 = 0; omega
  | ⟨1, _⟩ => show win0_4.index t (1 : Fin 2) * 3200 + 1 * p.val = t.val * 3200 + p.val; omega

/-- Entry p of point t's block of the multiplicities, laid out as one row, is the multiplicity at that edge. -/
theorem blk5_at (c : Dev nD) (t : Fin cfg0.N) (p : Fin 3200) :
    (iblk0 V c 5 t : Vec Ideal S1x3200 .f32) (ix2 (0 : Fin 1) p) = V c main_v43 (ix2 (0 : Fin 1) (edgeOf t p)) := by
  obtain ⟨-, -, -, -, -, ⟨e0, e1⟩, -⟩ := blockIndex t
  show V c main_v43 (((cfg0.win 5).blk t).view.emb (ix2 (0 : Fin 1) p)) = _
  refine congrArg (V c main_v43) (funext fun a => Fin.ext ?_)
  match a with
  | ⟨0, _⟩ => show win0_5.index t (0 : Fin 2) * 1 + 1 * 0 = 0; omega
  | ⟨1, _⟩ => show win0_5.index t (1 : Fin 2) * 3200 + 1 * p.val = t.val * 3200 + p.val; omega

/-- Every point's block of the first layer's weights is the whole array. -/
theorem blk6_eq (c : Dev nD) (t : Fin cfg0.N) : (iblk0 V c 6 t : Vec Ideal S40x48 .f32) = V c main_v39 := by
  obtain ⟨-, -, -, -, -, -, ⟨e0, e1⟩, -⟩ := blockIndex t
  funext y
  show V c main_v39 (((cfg0.win 6).blk t).view.emb y) = V c main_v39 y
  refine congrArg (V c main_v39) (funext fun a => Fin.ext ?_)
  match a with
  | ⟨0, _⟩ => show win0_6.index t (0 : Fin 2) * 40 + 1 * (y 0).val = (y 0).val; omega
  | ⟨1, _⟩ => show win0_6.index t (1 : Fin 2) * 48 + 1 * (y 1).val = (y 1).val; omega

/-- Every point's block of the first layer's bias is the whole array. -/
theorem blk7_eq (c : Dev nD) (t : Fin cfg0.N) : (iblk0 V c 7 t : Vec Ideal S48 .f32) = V c main_arg8 := by
  obtain ⟨-, -, -, -, -, -, -, e0, -⟩ := blockIndex t
  funext y
  show V c main_arg8 (((cfg0.win 7).blk t).view.emb y) = V c main_arg8 y
  refine congrArg (V c main_arg8) (funext fun a => Fin.ext ?_)
  match a with
  | ⟨0, _⟩ => show win0_7.index t (0 : Fin 1) * 48 + 1 * (y 0).val = (y 0).val; omega

/-- Every point's block of the second layer's weights is the whole array. -/
theorem blk8_eq (c : Dev nD) (t : Fin cfg0.N) : (iblk0 V c 8 t : Vec Ideal S48x48 .f32) = V c main_v40 := by
  obtain ⟨-, -, -, -, -, -, -, -, ⟨e0, e1⟩, -⟩ := blockIndex t
  funext y
  show V c main_v40 (((cfg0.win 8).blk t).view.emb y) = V c main_v40 y
  refine congrArg (V c main_v40) (funext fun a => Fin.ext ?_)
  match a with
  | ⟨0, _⟩ => show win0_8.index t (0 : Fin 2) * 48 + 1 * (y 0).val = (y 0).val; omega
  | ⟨1, _⟩ => show win0_8.index t (1 : Fin 2) * 48 + 1 * (y 1).val = (y 1).val; omega

/-- Every point's block of the second layer's bias is the whole array. -/
theorem blk9_eq (c : Dev nD) (t : Fin cfg0.N) : (iblk0 V c 9 t : Vec Ideal S48 .f32) = V c main_arg10 := by
  obtain ⟨-, -, -, -, -, -, -, -, -, e0, -⟩ := blockIndex t
  funext y
  show V c main_arg10 (((cfg0.win 9).blk t).view.emb y) = V c main_arg10 y
  refine congrArg (V c main_arg10) (funext fun a => Fin.ext ?_)
  match a with
  | ⟨0, _⟩ => show win0_9.index t (0 : Fin 1) * 48 + 1 * (y 0).val = (y 0).val; omega

/-- Every point's block of the bilinear form's matrix is the whole array. -/
theorem blk10_eq (c : Dev nD) (t : Fin cfg0.N) : (iblk0 V c 10 t : Vec Ideal S32x32 .f32) = V c main_v41 := by
  obtain ⟨-, -, -, -, -, -, -, -, -, -, ⟨e0, e1⟩, -⟩ := blockIndex t
  funext y
  show V c main_v41 (((cfg0.win 10).blk t).view.emb y) = V c main_v41 y
  refine congrArg (V c main_v41) (funext fun a => Fin.ext ?_)
  match a with
  | ⟨0, _⟩ => show win0_10.index t (0 : Fin 2) * 32 + 1 * (y 0).val = (y 0).val; omega
  | ⟨1, _⟩ => show win0_10.index t (1 : Fin 2) * 32 + 1 * (y 1).val = (y 1).val; omega

/-- The message of a block's row is the message of the edge the row is, once the block's rows are the arrays' rows at that edge. -/
theorem msgBlk_of_rows
    (EA : FVec Ideal Cert.Spec.SE40 .f32) (HD : FVec Ideal Cert.Spec.SE48 .f32) (EI EJ : FVec Ideal Cert.Spec.SE32 .f32)
    (DI MU : FVec Ideal ⟨2, ![1, 800000]⟩ .f32)
    (ea : Vec Ideal S3200x40 .f32) (hd : Vec Ideal S3200x48 .f32) (ei ej : Vec Ideal S3200x32 .f32) (di mu : Vec Ideal S1x3200 .f32)
    (w1 : Vec Ideal S40x48 .f32) (b1 : Vec Ideal S48 .f32) (w2 : Vec Ideal S48x48 .f32) (b2 : Vec Ideal S48 .f32) (aw : Vec Ideal S32x32 .f32)
    (e : Fin 800000) (p : Fin 3200)
    (hea : ∀ r : Fin 40, ea (ix2 p r) = EA (ix2 e r)) (hhd : ∀ j : Fin 48, hd (ix2 p j) = HD (ix2 e j))
    (hei : ∀ g : Fin 32, ei (ix2 p g) = EI (ix2 e g)) (hej : ∀ g : Fin 32, ej (ix2 p g) = EJ (ix2 e g))
    (hdi : di (ix2 (0 : Fin 1) p) = DI (ix2 (0 : Fin 1) e)) (hmu : mu (ix2 (0 : Fin 1) p) = MU (ix2 (0 : Fin 1) e)) (j : Fin 48) :
    msgBlk ea hd ei ej di mu w1 b1 w2 b2 aw p j
      = Cert.Spec.msgAt EA HD EI EJ (Cert.Spec.rowOf DI) (Cert.Spec.rowOf MU) w1 b1 w2 b2 aw e j := by
  unfold msgBlk Cert.Spec.msgAt Cert.Spec.gate Cert.Spec.hid Cert.Spec.bil Cert.Spec.rowOf
  simp only [hea, hhd, hei, hej, hdi, hmu]

/-- Where row p, channel j of the output's block at point t sits in the array. -/
theorem out_emb (t : Fin cfg0.N) (p : Fin 3200) (j : Fin 48) :
    ((cfg0.win 11).blk t).view.emb (ix2 p j) = ix2 (edgeOf t p) j := by
  obtain ⟨-, -, -, -, -, -, -, -, -, -, -, e0, e1⟩ := blockIndex t
  refine funext fun a => Fin.ext ?_
  match a with
  | ⟨0, _⟩ => show win0_11.index t (0 : Fin 2) * 3200 + 1 * p.val = t.val * 3200 + p.val; omega
  | ⟨1, _⟩ => show win0_11.index t (1 : Fin 2) * 48 + 1 * j.val = j.val; omega

/-- What point t writes back: its block of the messages. -/
theorem edge_flushed (c : Dev nD) (t : Fin cfg0.N) :
    (dat0 (F := Ideal) V c).flushed 11 t
      = ((cfg0.win 11).blk t).view.read (Elt Ideal) (Cert.Spec.msg (V c main_arg2) (V c main_v31) (V c main_v17) (V c main_v24) (Cert.Spec.rowOf (V c main_v42))
          (Cert.Spec.rowOf (V c main_v43)) (V c main_v39) (V c main_arg8) (V c main_v40) (V c main_arg10) (V c main_v41)) := by
  show (cfg0.win 11).cut (grid0.coords t) ((dat0 (F := Ideal) V c).after 11 t) = _
  rw [after0_11]
  unfold out0_11
  rw [View.canon_unit_zero zeros2]
  simp only [View.ld_unit_zero (S := S3200x40) zeros2, View.ld_unit_zero (S := S3200x48) zeros2, View.ld_unit_zero (S := S3200x32) zeros2,
    View.ld_unit_zero (S := S1x3200) zeros2, View.ld_unit_zero (S := S40x48) zeros2, View.ld_unit_zero (S := S48x48) zeros2,
    View.ld_unit_zero (S := S32x32) zeros2, View.ld_unit_zero (S := S48) zeros1]
  funext y
  obtain ⟨p, j, rfl⟩ : ∃ (p : Fin 3200) (j : Fin 48), y = ix2 p j := ⟨y 0, y 1, eq_ix2 y⟩
  refine (pay_at (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) p j).trans ?_
  rw [blk6_eq, blk7_eq, blk8_eq, blk9_eq, blk10_eq]
  refine (msgBlk_of_rows (V c main_arg2) (V c main_v31) (V c main_v17) (V c main_v24) (V c main_v42) (V c main_v43)
    (iblk0 V c 0 t) (iblk0 V c 1 t) (iblk0 V c 2 t) (iblk0 V c 3 t) (iblk0 V c 4 t) (iblk0 V c 5 t)
    (V c main_v39) (V c main_arg8) (V c main_v40) (V c main_arg10) (V c main_v41) (edgeOf t p) p
    (blk0_at V c t p) (blk1_at V c t p) (blk2_at V c t p) (blk3_at V c t p) (blk4_at V c t p) (blk5_at V c t p) j).trans ?_
  rw [View.read_apply, out_emb]
  rfl

/-- An index of the array is in point t's block iff each coordinate is in the block's range on its axis. -/
theorem mem_outBlk (t : Fin cfg0.N) (i : S800000x48.Idx) :
    i ∈ ((cfg0.win 11).blk t).view.set
      ↔ ∀ a : Fin 2, win0_11.index t a * S3200x48.size a ≤ (i a).val ∧ (i a).val < win0_11.index t a * S3200x48.size a + S3200x48.size a := by
  show i ∈ ((View.whole main_v44).slice (win0_11.rect t)).set ↔ _
  rw [View.set_slice_whole, Rect.mem_set_unit]
  exact Iff.rfl

/-- Every edge lies in the block of the point numbered by its quotient by 3200. -/
theorem out_cover (i : S800000x48.Idx) :
    ∃ t : Fin cfg0.N, (cfg0.win 11).flush t = true ∧ i ∈ ((cfg0.win 11).blk t).view.set := by
  have hi0 : (i 0).val < 800000 := (i 0).isLt
  have hi1 : (i 1).val < 48 := (i 1).isLt
  let t : Fin cfg0.N := ⟨(i 0).val / 3200, lt_of_lt_of_eq (by omega : (i 0).val / 3200 < 250) N_0.symm⟩
  obtain ⟨-, -, -, -, -, -, -, -, -, -, -, e0, e1⟩ := blockIndex t
  have ht : t.val = (i 0).val / 3200 := rfl
  refine ⟨t, flush0_11 t, ?_⟩
  rw [mem_outBlk]
  intro a
  match a with
  | ⟨0, _⟩ => show win0_11.index t (0 : Fin 2) * 3200 ≤ (i 0).val ∧ (i 0).val < win0_11.index t (0 : Fin 2) * 3200 + 3200; omega
  | ⟨1, _⟩ => show win0_11.index t (1 : Fin 2) * 48 ≤ (i 1).val ∧ (i 1).val < win0_11.index t (1 : Fin 2) * 48 + 48; omega

end ToArray

open ToArray

/-- The array the first call leaves: the messages, edge by edge and channel by channel. -/
theorem edge_final (c : Dev nD) :
    (dat0 (F := Ideal) V c).arrAt 11 cfg0.N
      = Cert.Spec.msg (V c main_arg2) (V c main_v31) (V c main_v17) (V c main_v24) (Cert.Spec.rowOf (V c main_v42))
          (Cert.Spec.rowOf (V c main_v43)) (V c main_v39) (V c main_arg8) (V c main_v40) (V c main_arg10) (V c main_v41) :=
  (dat0 (F := Ideal) V c).arrAt_eq_of_cover 11 _ (fun t _ => edge_flushed V c t) out_cover

end Cert.KernelIdeal.EdgeValue

end
-- ==== Proof.KResult.lean ====
/-
  The kernel program's result as one function of @main's argument arrays: the layer normalisation (by the reciprocal
  square root) of the node features plus the aggregation of the messages, the messages being the message function of
  the edge features, the gathered target features, the two gathered embeddings, the distances, the gathered
  multiplicities and the transposed weights.
-/
import proofs.«425709_j66537633349675_2_alg».proof.Proof.KHostDefs
import proofs.«425709_j66537633349675_2_alg».proof.Proof.Spec

noncomputable section

namespace Cert.KernelIdeal.HostValue

open Cert.KernelIdeal Cert.KernelIdeal.Gen Idealize.ShloMosaic Idealize.ShloMosaic.TcCoe Idealize.SL.Sem

/-- The messages the first pallas_call computes, of the argument arrays. -/
def msgK (x0 : (⟨S50000x48, .f32⟩ : BufTy).Contents (Elt Ideal)) (x1 : (⟨S2x800000, .i32⟩ : BufTy).Contents (Elt Ideal)) (x2 : (⟨S800000x40, .f32⟩ : BufTy).Contents (Elt Ideal)) (x3 : (⟨S800000, .f32⟩ : BufTy).Contents (Elt Ideal)) (x4 : (⟨S50000, .i32⟩ : BufTy).Contents (Elt Ideal)) (x5 : (⟨S50000, .f32⟩ : BufTy).Contents (Elt Ideal)) (x7 : (⟨S48x40, .f32⟩ : BufTy).Contents (Elt Ideal)) (x8 : (⟨S48, .f32⟩ : BufTy).Contents (Elt Ideal)) (x9 : (⟨S48x48, .f32⟩ : BufTy).Contents (Elt Ideal)) (x10 : (⟨S48, .f32⟩ : BufTy).Contents (Elt Ideal)) (x11 : (⟨S119x32, .f32⟩ : BufTy).Contents (Elt Ideal)) (x12 : (⟨S32x32, .f32⟩ : BufTy).Contents (Elt Ideal)) : (⟨S800000x48, .f32⟩ : BufTy).Contents (Elt Ideal) :=
  Cert.Spec.msg x2 (hdstK x0 x1) (eiK x1 x4 x11) (ejK x1 x4 x11) x3 (mjK x1 x5) (w1tK x7) x8 (w2tK x9) x10 (awtK x12)

/-- The kernel program's result array, of the argument arrays. -/
def resultK (x0 : (⟨S50000x48, .f32⟩ : BufTy).Contents (Elt Ideal)) (x1 : (⟨S2x800000, .i32⟩ : BufTy).Contents (Elt Ideal)) (x2 : (⟨S800000x40, .f32⟩ : BufTy).Contents (Elt Ideal)) (x3 : (⟨S800000, .f32⟩ : BufTy).Contents (Elt Ideal)) (x4 : (⟨S50000, .i32⟩ : BufTy).Contents (Elt Ideal)) (x5 : (⟨S50000, .f32⟩ : BufTy).Contents (Elt Ideal)) (x7 : (⟨S48x40, .f32⟩ : BufTy).Contents (Elt Ideal)) (x8 : (⟨S48, .f32⟩ : BufTy).Contents (Elt Ideal)) (x9 : (⟨S48x48, .f32⟩ : BufTy).Contents (Elt Ideal)) (x10 : (⟨S48, .f32⟩ : BufTy).Contents (Elt Ideal)) (x11 : (⟨S119x32, .f32⟩ : BufTy).Contents (Elt Ideal)) (x12 : (⟨S32x32, .f32⟩ : BufTy).Contents (Elt Ideal)) (x13 x14 : (⟨S48, .f32⟩ : BufTy).Contents (Elt Ideal)) : (⟨S50000x48, .f32⟩ : BufTy).Contents (Elt Ideal) :=
  Cert.Spec.lnK x0 (aggK (msgK x0 x1 x2 x3 x4 x5 x7 x8 x9 x10 x11 x12) x1 x5) x13 x14

end Cert.KernelIdeal.HostValue

end
-- ==== Proof.KValue.lean ====
/-
  The kernel program's run with its result named: every weakly fair execution terminates without a fault, the result
  array at the function 'resultK' of the argument arrays and the arguments as launched. The result array is what the
  second call's write-backs leave; that call's operands are two arguments, and the aggregation of what the first call's
  write-backs leave; the first call's operands are the host arithmetic of the arguments.
-/
import proofs.«425709_j66537633349675_2_alg».proof.Proof.KRun
import proofs.«425709_j66537633349675_2_alg».proof.Proof.KHost
import proofs.«425709_j66537633349675_2_alg».proof.Proof.KLn
import proofs.«425709_j66537633349675_2_alg».proof.Proof.KEdge
import proofs.«425709_j66537633349675_2_alg».proof.Proof.KResult

set_option maxRecDepth 16384

noncomputable section

namespace Cert.KernelIdeal.HostValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents at the result array: the kernel's function of the launch memory's arguments. -/
theorem result_eq (c : Dev nD) :
    W6 m ρ c (Proc.devRef .tc main_v55) = resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W6_v55, Cert.KernelIdeal.LnValue.ln_final (V5 m ρ) c, V5_arg0, V5_v54, V5_arg13, V5_arg14, W2_v44,
    Cert.KernelIdeal.EdgeValue.edge_final (V1 m ρ) c, V1_arg2, V1_v31, V1_v17, V1_v24, V1_v42, V1_v43, V1_v39, V1_arg8, V1_v40,
    V1_arg10, V1_v41, rowOf_asRowK, rowOf_asRowK]
  rfl

/-- The run, with the result named. -/
theorem run : θ_run defs (onTc (τ := τ) (main (F := Ideal))) ⟨m, fun _ => 0, ρ⟩ (fun r => ∀ c : Dev nD,
      r.2.mem ((c.tc : Thread nD τ).loc main_v55) = resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (run_named m ρ)

end Cert.KernelIdeal.HostValue

end
-- ==== Proof.RRef.lean ====
/-
  The reference program's aggregation as a function of whatever the messages are: the scatter-sum into the source nodes
  over the summed multiplicities clipped below; the reference's own aggregate is that function of its own messages.
-/
import proofs.«425709_j66537633349675_2_alg».proof.Proof.Gen.ReferenceIdeal.Read
import proofs.«425709_j66537633349675_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

/-- The aggregation as a function of the messages: summed into their source nodes, over the clipped summed multiplicities. -/
def aggR {F : FTy → Type} [FloatOps F] (msg : (⟨S800000x48, .f32⟩ : BufTy).Contents (Elt F)) (x1 : (⟨S2x800000, .i32⟩ : BufTy).Contents (Elt F))
    (x5 : (⟨S50000, .f32⟩ : BufTy).Contents (Elt F)) : (⟨S50000x48, .f32⟩ : BufTy).Contents (Elt F) :=
  Host.divf (Host.scatterAdd scatter_S50000x48_S800000x1_S800000x48_1_0_0_1 (val_main_v81 (F := F)) (val_main_v82 (F := F) x1) msg)
    (val_main_v89 (F := F) x1 x5)

/-- The reference's aggregate is that function of its own messages. -/
theorem ref_agg {F : FTy → Type} [FloatOps F] (x0 : (⟨S50000x48, .f32⟩ : BufTy).Contents (Elt F)) (x1 : (⟨S2x800000, .i32⟩ : BufTy).Contents (Elt F)) (x2 : (⟨S800000x40, .f32⟩ : BufTy).Contents (Elt F)) (x3 : (⟨S800000, .f32⟩ : BufTy).Contents (Elt F)) (x4 : (⟨S50000, .i32⟩ : BufTy).Contents (Elt F)) (x5 : (⟨S50000, .f32⟩ : BufTy).Contents (Elt F)) (x7 : (⟨S48x40, .f32⟩ : BufTy).Contents (Elt F)) (x8 : (⟨S48, .f32⟩ : BufTy).Contents (Elt F)) (x9 : (⟨S48x48, .f32⟩ : BufTy).Contents (Elt F)) (x10 : (⟨S48, .f32⟩ : BufTy).Contents (Elt F)) (x11 : (⟨S119x32, .f32⟩ : BufTy).Contents (Elt F)) (x12 : (⟨S32x32, .f32⟩ : BufTy).Contents (Elt F)) :
    val_main_v90 (F := F) x0 x1 x2 x3 x4 x5 x7 x8 x9 x10 x11 x12 = aggR (val_main_v80 (F := F) x0 x1 x2 x3 x4 x5 x7 x8 x9 x10 x11 x12) x1 x5 := rfl

end Cert.ReferenceIdeal.RefValue

end
-- ==== Proof.RMsg.lean ====
/-
  The reference program's per-edge product, read index by index through its stages: the message function of its own
  gathered rows and transposed weights.
-/
import proofs.«425709_j66537633349675_2_alg».proof.Proof.Gen.ReferenceIdeal.Read
import proofs.«425709_j66537633349675_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

namespace Msg

/-! ## The filter: hidden layer, activation, second layer -/

/-- The hidden layer at edge e, unit k: the edge's radial features against a column of the transposed first weight,
    plus the bias. -/
theorem ref_hid (x2 : (⟨S800000x40, .f32⟩ : BufTy).Contents (Elt Ideal)) (x7 : (⟨S48x40, .f32⟩ : BufTy).Contents (Elt Ideal))
    (x8 : (⟨S48, .f32⟩ : BufTy).Contents (Elt Ideal)) (e : Fin 800000) (k : Fin 48) :
    val_main_v8 (F := Ideal) x2 x7 x8 (ix2 e k) = Cert.Spec.hid x2 (val_main_v4 (F := Ideal) x7) x8 e k := by
  have hl : ∀ r : Fin 40, lidx_main_v5 (ix2 e k) r = ix2 e r := fun r =>
    funext fun a => Fin.ext (by match a with | ⟨0, _⟩ => rfl | ⟨1, _⟩ => rfl)
  have hr : ∀ r : Fin 40, ridx_main_v5 (ix2 e k) r = ix2 r k := fun r =>
    funext fun a => Fin.ext (by match a with | ⟨0, _⟩ => rfl | ⟨1, _⟩ => rfl)
  have hb : idx_main_v6 (idx_main_v7 (ix2 e k)) = ix1 k :=
    funext fun a => Fin.ext (by match a with | ⟨0, _⟩ => rfl)
  rw [val_main_v8_apply, val_main_v5_apply, val_main_v7_apply, val_main_v6_apply, hb]
  simp only [hl, hr]
  rfl

/-- x · (1 / (1 + e⁻ˣ)) with the unit written as its word is x · sigmoid x. -/
theorem silu_words (x : EReal) :
    x * Ideal.div (Ideal.ofBits .f32 0x3F800000#32) (Ideal.ofBits .f32 0x3F800000#32 + Ideal.exp (-x)) = Cert.Spec.silu x := by
  rw [Cert.Spec.wOne_eq]
  rfl

/-- The activated hidden layer at edge e, unit k. -/
theorem ref_act (x2 : (⟨S800000x40, .f32⟩ : BufTy).Contents (Elt Ideal)) (x7 : (⟨S48x40, .f32⟩ : BufTy).Contents (Elt Ideal))
    (x8 : (⟨S48, .f32⟩ : BufTy).Contents (Elt Ideal)) (e : Fin 800000) (k : Fin 48) :
    val_main_v9 (F := Ideal) x2 x7 x8 (ix2 e k) = Cert.Spec.silu (Cert.Spec.hid x2 (val_main_v4 (F := Ideal) x7) x8 e k) := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply, ref_hid]
  exact silu_words _

/-- The second layer at edge e, channel j: the activated hidden row against a column of the transposed second weight,
    plus the bias. -/
theorem ref_lin (x2 : (⟨S800000x40, .f32⟩ : BufTy).Contents (Elt Ideal)) (x7 : (⟨S48x40, .f32⟩ : BufTy).Contents (Elt Ideal))
    (x8 : (⟨S48, .f32⟩ : BufTy).Contents (Elt Ideal)) (x9 : (⟨S48x48, .f32⟩ : BufTy).Contents (Elt Ideal))
    (x10 : (⟨S48, .f32⟩ : BufTy).Contents (Elt Ideal)) (e : Fin 800000) (j : Fin 48) :
    val_main_v14 (F := Ideal) x2 x7 x8 x9 x10 (ix2 e j)
      = (∑ k : Fin 48, Cert.Spec.silu (Cert.Spec.hid x2 (val_main_v4 (F := Ideal) x7) x8 e k) * (val_main_v10 (F := Ideal) x9) (ix2 k j))
          + x10 (ix1 j) := by
  have hl : ∀ k : Fin 48, lidx_main_v11 (ix2 e j) k = ix2 e k := fun k =>
    funext fun a => Fin.ext (by match a with | ⟨0, _⟩ => rfl | ⟨1, _⟩ => rfl)
  have hr : ∀ k : Fin 48, ridx_main_v11 (ix2 e j) k = ix2 k j := fun k =>
    funext fun a => Fin.ext (by match a with | ⟨0, _⟩ => rfl | ⟨1, _⟩ => rfl)
  have hb : idx_main_v12 (idx_main_v13 (ix2 e j)) = ix1 j :=
    funext fun a => Fin.ext (by match a with | ⟨0, _⟩ => rfl)
  rw [val_main_v14_apply, val_main_v11_apply, val_main_v13_apply, val_main_v12_apply, hb]
  simp only [hl, hr, ref_act]
  rfl

/-! ## The bilinear form of the end points' embeddings -/

/-- The bilinear form at edge e, spread over the channels. -/
theorem ref_bil (x1 : (⟨S2x800000, .i32⟩ : BufTy).Contents (Elt Ideal)) (x4 : (⟨S50000, .i32⟩ : BufTy).Contents (Elt Ideal))
    (x11 : (⟨S119x32, .f32⟩ : BufTy).Contents (Elt Ideal)) (x12 : (⟨S32x32, .f32⟩ : BufTy).Contents (Elt Ideal))
    (e : Fin 800000) (j : Fin 48) :
    val_main_v48 (F := Ideal) x1 x4 x11 x12 (ix2 e j)
      = Cert.Spec.bil (val_main_v28 (F := Ideal) x1 x4 x11) (val_main_v42 (F := Ideal) x1 x4 x11) (val_main_v43 (F := Ideal) x12) e := by
  have hi : ∀ g : Fin 32, idx_main_v46 (idx_main_v47 (idx_main_v48 (ix2 e j))) g = ix2 e g := fun g =>
    funext fun a => Fin.ext (by match a with | ⟨0, _⟩ => rfl | ⟨1, _⟩ => rfl)
  have hl : ∀ g g' : Fin 32, lidx_main_v44 (ix2 e g) g' = ix2 e g' := fun g g' =>
    funext fun a => Fin.ext (by match a with | ⟨0, _⟩ => rfl | ⟨1, _⟩ => rfl)
  have hr : ∀ g g' : Fin 32, ridx_main_v44 (ix2 e g) g' = ix2 g' g := fun g g' =>
    funext fun a => Fin.ext (by match a with | ⟨0, _⟩ => rfl | ⟨1, _⟩ => rfl)
  rw [val_main_v48_apply, val_main_v47_apply, val_main_v46_apply, val_main_cst_apply, Ideal.ofBits_def,
    Ideal.ofBits_zero_f32, zero_add]
  simp only [hi, val_main_v45_apply, val_main_v44_apply, hl, hr]
  rfl

/-! ## The cutoff and the scale -/

/-- The cosine cutoff of the edge's length. -/
theorem ref_cut (x3 : (⟨S800000, .f32⟩ : BufTy).Contents (Elt Ideal)) (e : Fin 800000) :
    val_main_v61 (F := Ideal) x3 (ix1 e) = Cert.Spec.cutoff (x3 (ix1 e)) := by
  rw [val_main_v61_apply, val_main_v51_apply, val_main_v50_apply, val_main_cst_7_apply, val_main_v60_apply,
    val_main_v59_apply, val_main_cst_11_apply, val_main_v58_apply, val_main_v56_apply, val_main_v55_apply,
    val_main_v53_apply, val_main_v52_apply, val_main_cst_8_apply, val_main_v54_apply, val_main_cst_9_apply,
    val_main_v57_apply, val_main_cst_10_apply, val_main_call1_v1_apply, val_main_call1_v0_apply,
    val_main_cst_12_apply]
  rfl

/-- The cutoff times the receiving node's multiplicity, spread over the channels. -/
theorem ref_scale (x1 : (⟨S2x800000, .i32⟩ : BufTy).Contents (Elt Ideal)) (x3 : (⟨S800000, .f32⟩ : BufTy).Contents (Elt Ideal))
    (x5 : (⟨S50000, .f32⟩ : BufTy).Contents (Elt Ideal)) (e : Fin 800000) (j : Fin 48) :
    val_main_v79 (F := Ideal) x1 x3 x5 (ix2 e j)
      = Cert.Spec.cutoff (x3 (ix1 e)) * (val_main_v68 (F := Ideal) x1 x5) (ix1 e) := by
  have hi : idx_main_v78 (idx_main_v79 (ix2 e j)) = ix1 e :=
    funext fun a => Fin.ext (by match a with | ⟨0, _⟩ => rfl)
  rw [val_main_v79_apply, val_main_v78_apply, hi, val_main_v77_apply, ref_cut]
  rfl

end Msg

open Msg

/-! ## The message -/

/-- The reference's per-edge product is the message function of its gathered rows and transposed weights. -/
theorem ref_msg (x0 : (⟨S50000x48, .f32⟩ : BufTy).Contents (Elt Ideal)) (x1 : (⟨S2x800000, .i32⟩ : BufTy).Contents (Elt Ideal)) (x2 : (⟨S800000x40, .f32⟩ : BufTy).Contents (Elt Ideal)) (x3 : (⟨S800000, .f32⟩ : BufTy).Contents (Elt Ideal)) (x4 : (⟨S50000, .i32⟩ : BufTy).Contents (Elt Ideal)) (x5 : (⟨S50000, .f32⟩ : BufTy).Contents (Elt Ideal)) (x7 : (⟨S48x40, .f32⟩ : BufTy).Contents (Elt Ideal)) (x8 : (⟨S48, .f32⟩ : BufTy).Contents (Elt Ideal)) (x9 : (⟨S48x48, .f32⟩ : BufTy).Contents (Elt Ideal)) (x10 : (⟨S48, .f32⟩ : BufTy).Contents (Elt Ideal)) (x11 : (⟨S119x32, .f32⟩ : BufTy).Contents (Elt Ideal)) (x12 : (⟨S32x32, .f32⟩ : BufTy).Contents (Elt Ideal)) :
    val_main_v80 (F := Ideal) x0 x1 x2 x3 x4 x5 x7 x8 x9 x10 x11 x12
      = Cert.Spec.msg x2 (val_main_v75 (F := Ideal) x0 x1) (val_main_v28 (F := Ideal) x1 x4 x11) (val_main_v42 (F := Ideal) x1 x4 x11) x3
          (val_main_v68 (F := Ideal) x1 x5) (val_main_v4 (F := Ideal) x7) x8 (val_main_v10 (F := Ideal) x9) x10 (val_main_v43 (F := Ideal) x12) := by
  funext i
  obtain ⟨e, j, rfl⟩ : ∃ (e : Fin 800000) (j : Fin 48), i = ix2 e j := ⟨i 0, i 1, eq_ix2 i⟩
  rw [val_main_v80_apply, val_main_v76_apply, val_main_v49_apply, ref_lin, ref_bil, ref_scale]
  rfl

end Cert.ReferenceIdeal.RefValue

end
-- ==== Proof.RLn.lean ====
/-
  The reference program's last stages, read index by index: the layer normalisation (as a quotient by the square root)
  of the node features plus its aggregate.
-/
import proofs.«425709_j66537633349675_2_alg».proof.Proof.Gen.ReferenceIdeal.Read
import proofs.«425709_j66537633349675_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

section Stages

variable (x0 : (⟨S50000x48, .f32⟩ : BufTy).Contents (Elt Ideal)) (x1 : (⟨S2x800000, .i32⟩ : BufTy).Contents (Elt Ideal)) (x2 : (⟨S800000x40, .f32⟩ : BufTy).Contents (Elt Ideal)) (x3 : (⟨S800000, .f32⟩ : BufTy).Contents (Elt Ideal)) (x4 : (⟨S50000, .i32⟩ : BufTy).Contents (Elt Ideal)) (x5 : (⟨S50000, .f32⟩ : BufTy).Contents (Elt Ideal)) (x7 : (⟨S48x40, .f32⟩ : BufTy).Contents (Elt Ideal)) (x8 : (⟨S48, .f32⟩ : BufTy).Contents (Elt Ideal)) (x9 : (⟨S48x48, .f32⟩ : BufTy).Contents (Elt Ideal)) (x10 : (⟨S48, .f32⟩ : BufTy).Contents (Elt Ideal)) (x11 : (⟨S119x32, .f32⟩ : BufTy).Contents (Elt Ideal)) (x12 : (⟨S32x32, .f32⟩ : BufTy).Contents (Elt Ideal)) (x13 x14 : (⟨S48, .f32⟩ : BufTy).Contents (Elt Ideal))

/-- Row n of the features plus the aggregate. -/
theorem v91_at (n : Fin 50000) (k : Fin 48) :
    val_main_v91 (F := Ideal) x0 x1 x2 x3 x4 x5 x7 x8 x9 x10 x11 x12 (ix2 n k) = Cert.Spec.row x0 (val_main_v90 (F := Ideal) x0 x1 x2 x3 x4 x5 x7 x8 x9 x10 x11 x12) n k := rfl

/-- The sum of row n. -/
theorem v92_at (n : Fin 50000) :
    val_main_v92 (F := Ideal) x0 x1 x2 x3 x4 x5 x7 x8 x9 x10 x11 x12 (ix1 n) = ∑ k : Fin 48, Cert.Spec.row x0 (val_main_v90 (F := Ideal) x0 x1 x2 x3 x4 x5 x7 x8 x9 x10 x11 x12) n k := by
  rw [val_main_v92_apply, val_main_cst_20_apply, Ideal.ofBits_def, Ideal.ofBits_zero_f32, zero_add]
  refine Finset.sum_congr rfl fun k _ => ?_
  have e : idx_main_v92 (ix1 n) k = ix2 n k := funext fun a => Fin.ext (by match a with | ⟨0, _⟩ => rfl | ⟨1, _⟩ => rfl)
  rw [e]; rfl

/-- The mean of row n. -/
theorem v95_at (n : Fin 50000) :
    val_main_v95 (F := Ideal) x0 x1 x2 x3 x4 x5 x7 x8 x9 x10 x11 x12 (ix2 n (0 : Fin 1)) = Cert.Spec.mean x0 (val_main_v90 (F := Ideal) x0 x1 x2 x3 x4 x5 x7 x8 x9 x10 x11 x12) n := by
  rw [val_main_v95_apply, val_main_v93_apply, val_main_v94_apply, val_main_cst_21_apply, Ideal.hostDivf_def, Ideal.ofBits_def]
  have e : idx_main_v93 (ix2 n (0 : Fin 1)) = ix1 n := funext fun a => Fin.ext (by match a with | ⟨0, _⟩ => rfl)
  rw [e, v92_at]; rfl

/-- The mean, spread over the row (first copy). -/
theorem v96_at (n : Fin 50000) (k : Fin 48) :
    val_main_v96 (F := Ideal) x0 x1 x2 x3 x4 x5 x7 x8 x9 x10 x11 x12 (ix2 n k) = Cert.Spec.mean x0 (val_main_v90 (F := Ideal) x0 x1 x2 x3 x4 x5 x7 x8 x9 x10 x11 x12) n := by
  rw [val_main_v96_apply]
  have e : idx_main_v96 (ix2 n k) = ix2 n (0 : Fin 1) := funext fun a => Fin.ext (by match a with | ⟨0, _⟩ => rfl | ⟨1, _⟩ => rfl)
  rw [e, v95_at]

/-- The mean, spread over the row (second copy). -/
theorem v103_at (n : Fin 50000) (k : Fin 48) :
    val_main_v103 (F := Ideal) x0 x1 x2 x3 x4 x5 x7 x8 x9 x10 x11 x12 (ix2 n k) = Cert.Spec.mean x0 (val_main_v90 (F := Ideal) x0 x1 x2 x3 x4 x5 x7 x8 x9 x10 x11 x12) n := by
  rw [val_main_v103_apply]
  have e : idx_main_v103 (ix2 n k) = ix2 n (0 : Fin 1) := funext fun a => Fin.ext (by match a with | ⟨0, _⟩ => rfl | ⟨1, _⟩ => rfl)
  rw [e, v95_at]

/-- The centred row (first copy). -/
theorem v97_at (n : Fin 50000) (k : Fin 48) :
    val_main_v97 (F := Ideal) x0 x1 x2 x3 x4 x5 x7 x8 x9 x10 x11 x12 (ix2 n k) = Cert.Spec.cen x0 (val_main_v90 (F := Ideal) x0 x1 x2 x3 x4 x5 x7 x8 x9 x10 x11 x12) n k := by
  rw [val_main_v97_apply, Ideal.subf_def, v91_at, v96_at]; rfl

/-- The centred row (second copy). -/
theorem v104_at (n : Fin 50000) (k : Fin 48) :
    val_main_v104 (F := Ideal) x0 x1 x2 x3 x4 x5 x7 x8 x9 x10 x11 x12 (ix2 n k) = Cert.Spec.cen x0 (val_main_v90 (F := Ideal) x0 x1 x2 x3 x4 x5 x7 x8 x9 x10 x11 x12) n k := by
  rw [val_main_v104_apply, Ideal.subf_def, v91_at, v103_at]; rfl

/-- The squared centred entry. -/
theorem v98_at (n : Fin 50000) (k : Fin 48) :
    val_main_v98 (F := Ideal) x0 x1 x2 x3 x4 x5 x7 x8 x9 x10 x11 x12 (ix2 n k) = Cert.Spec.cen x0 (val_main_v90 (F := Ideal) x0 x1 x2 x3 x4 x5 x7 x8 x9 x10 x11 x12) n k * Cert.Spec.cen x0 (val_main_v90 (F := Ideal) x0 x1 x2 x3 x4 x5 x7 x8 x9 x10 x11 x12) n k := by
  rw [val_main_v98_apply, Ideal.mulf_def, v97_at]

/-- The sum of the squares of row n. -/
theorem v99_at (n : Fin 50000) :
    val_main_v99 (F := Ideal) x0 x1 x2 x3 x4 x5 x7 x8 x9 x10 x11 x12 (ix1 n) = ∑ k : Fin 48, Cert.Spec.cen x0 (val_main_v90 (F := Ideal) x0 x1 x2 x3 x4 x5 x7 x8 x9 x10 x11 x12) n k * Cert.Spec.cen x0 (val_main_v90 (F := Ideal) x0 x1 x2 x3 x4 x5 x7 x8 x9 x10 x11 x12) n k := by
  rw [val_main_v99_apply, val_main_cst_22_apply, Ideal.ofBits_def, Ideal.ofBits_zero_f32, zero_add]
  refine Finset.sum_congr rfl fun k _ => ?_
  have e : idx_main_v99 (ix1 n) k = ix2 n k := funext fun a => Fin.ext (by match a with | ⟨0, _⟩ => rfl | ⟨1, _⟩ => rfl)
  rw [e, v98_at]

/-- The variance of row n. -/
theorem v102_at (n : Fin 50000) :
    val_main_v102 (F := Ideal) x0 x1 x2 x3 x4 x5 x7 x8 x9 x10 x11 x12 (ix2 n (0 : Fin 1)) = Cert.Spec.var x0 (val_main_v90 (F := Ideal) x0 x1 x2 x3 x4 x5 x7 x8 x9 x10 x11 x12) n := by
  rw [val_main_v102_apply, val_main_v100_apply, val_main_v101_apply, val_main_cst_23_apply, Ideal.hostDivf_def, Ideal.ofBits_def]
  have e : idx_main_v100 (ix2 n (0 : Fin 1)) = ix1 n := funext fun a => Fin.ext (by match a with | ⟨0, _⟩ => rfl)
  rw [e, v99_at]; rfl

/-- The root of the variance plus the constant. -/
theorem v107_at (n : Fin 50000) :
    val_main_v107 (F := Ideal) x0 x1 x2 x3 x4 x5 x7 x8 x9 x10 x11 x12 (ix2 n (0 : Fin 1)) = Ideal.sqrt (Cert.Spec.var x0 (val_main_v90 (F := Ideal) x0 x1 x2 x3 x4 x5 x7 x8 x9 x10 x11 x12) n + Cert.Spec.wEps) := by
  rw [val_main_v107_apply, Ideal.hostUnary_sqrt_def, val_main_v106_apply, Ideal.addf_def, v102_at, val_main_v105_apply,
    val_main_cst_24_apply, Ideal.ofBits_def]

/-- The root, spread over the row. -/
theorem v108_at (n : Fin 50000) (k : Fin 48) :
    val_main_v108 (F := Ideal) x0 x1 x2 x3 x4 x5 x7 x8 x9 x10 x11 x12 (ix2 n k) = Ideal.sqrt (Cert.Spec.var x0 (val_main_v90 (F := Ideal) x0 x1 x2 x3 x4 x5 x7 x8 x9 x10 x11 x12) n + Cert.Spec.wEps) := by
  rw [val_main_v108_apply]
  have e : idx_main_v108 (ix2 n k) = ix2 n (0 : Fin 1) := funext fun a => Fin.ext (by match a with | ⟨0, _⟩ => rfl | ⟨1, _⟩ => rfl)
  rw [e, v107_at]

/-- The normalised entry. -/
theorem v109_at (n : Fin 50000) (k : Fin 48) :
    val_main_v109 (F := Ideal) x0 x1 x2 x3 x4 x5 x7 x8 x9 x10 x11 x12 (ix2 n k)
      = Ideal.div (Cert.Spec.cen x0 (val_main_v90 (F := Ideal) x0 x1 x2 x3 x4 x5 x7 x8 x9 x10 x11 x12) n k) (Ideal.sqrt (Cert.Spec.var x0 (val_main_v90 (F := Ideal) x0 x1 x2 x3 x4 x5 x7 x8 x9 x10 x11 x12) n + Cert.Spec.wEps)) := by
  rw [val_main_v109_apply, Ideal.hostDivf_def, v104_at, v108_at]

/-- The scale, spread over the rows. -/
theorem v111_at (n : Fin 50000) (k : Fin 48) :
    val_main_v111 (F := Ideal) x13 (ix2 n k) = x13 (ix1 k) := by
  rw [val_main_v111_apply, val_main_v110_apply]
  exact congrArg x13 (funext fun a => Fin.ext (by match a with | ⟨0, _⟩ => rfl))

/-- The shift, spread over the rows. -/
theorem v114_at (n : Fin 50000) (k : Fin 48) :
    val_main_v114 (F := Ideal) x14 (ix2 n k) = x14 (ix1 k) := by
  rw [val_main_v114_apply, val_main_v113_apply]
  exact congrArg x14 (funext fun a => Fin.ext (by match a with | ⟨0, _⟩ => rfl))

/-- The result at node n, channel j. -/
theorem v115_at (n : Fin 50000) (j : Fin 48) :
    val_main_v115 (F := Ideal) x0 x1 x2 x3 x4 x5 x7 x8 x9 x10 x11 x12 x13 x14 (ix2 n j) = Cert.Spec.lnRAt x0 (val_main_v90 (F := Ideal) x0 x1 x2 x3 x4 x5 x7 x8 x9 x10 x11 x12) x13 x14 n j := by
  rw [val_main_v115_apply, Ideal.addf_def, val_main_v112_apply, Ideal.mulf_def, v109_at, v111_at, v114_at]; rfl

end Stages

/-- The reference's result is the layer normalisation of the node features plus its aggregate. -/
theorem ref_ln (x0 : (⟨S50000x48, .f32⟩ : BufTy).Contents (Elt Ideal)) (x1 : (⟨S2x800000, .i32⟩ : BufTy).Contents (Elt Ideal)) (x2 : (⟨S800000x40, .f32⟩ : BufTy).Contents (Elt Ideal)) (x3 : (⟨S800000, .f32⟩ : BufTy).Contents (Elt Ideal)) (x4 : (⟨S50000, .i32⟩ : BufTy).Contents (Elt Ideal)) (x5 : (⟨S50000, .f32⟩ : BufTy).Contents (Elt Ideal)) (x7 : (⟨S48x40, .f32⟩ : BufTy).Contents (Elt Ideal)) (x8 : (⟨S48, .f32⟩ : BufTy).Contents (Elt Ideal)) (x9 : (⟨S48x48, .f32⟩ : BufTy).Contents (Elt Ideal)) (x10 : (⟨S48, .f32⟩ : BufTy).Contents (Elt Ideal)) (x11 : (⟨S119x32, .f32⟩ : BufTy).Contents (Elt Ideal)) (x12 : (⟨S32x32, .f32⟩ : BufTy).Contents (Elt Ideal)) (x13 x14 : (⟨S48, .f32⟩ : BufTy).Contents (Elt Ideal)) :
    val_main_v115 (F := Ideal) x0 x1 x2 x3 x4 x5 x7 x8 x9 x10 x11 x12 x13 x14
      = Cert.Spec.lnR x0 (val_main_v90 (F := Ideal) x0 x1 x2 x3 x4 x5 x7 x8 x9 x10 x11 x12) x13 x14 := by
  funext i
  obtain ⟨n, j, rfl⟩ : ∃ (n : Fin 50000) (j : Fin 48), i = ix2 n j := ⟨i 0, i 1, eq_ix2 i⟩
  exact v115_at x0 x1 x2 x3 x4 x5 x7 x8 x9 x10 x11 x12 x13 x14 n j

end Cert.ReferenceIdeal.RefValue

end
-- ==== Proof.Join.lean ====
/-
  Where the two programs spell the same host arithmetic, the arrays are the same: the gathered target features and
  multiplicities, the transposed weights, and the aggregation as a function of the messages.
-/
import proofs.«425709_j66537633349675_2_alg».proof.Proof.KHostDefs
import proofs.«425709_j66537633349675_2_alg».proof.Proof.RRef

noncomputable section

namespace Cert.Join

open Idealize.ShloMosaic Idealize.ShloMosaic.TcCoe Idealize.SL.Sem

variable {F : FTy → Type} [FloatOps F]

theorem hdst_join (x0 : (⟨Cert.KernelIdeal.S50000x48, .f32⟩ : BufTy).Contents (Elt F)) (x1 : (⟨Cert.KernelIdeal.S2x800000, .i32⟩ : BufTy).Contents (Elt F)) :
    Cert.KernelIdeal.HostValue.hdstK (F := F) x0 x1 = Cert.ReferenceIdeal.Read.val_main_v75 (F := F) x0 x1 := rfl

theorem mj_join (x1 : (⟨Cert.KernelIdeal.S2x800000, .i32⟩ : BufTy).Contents (Elt F)) (x5 : (⟨Cert.KernelIdeal.S50000, .f32⟩ : BufTy).Contents (Elt F)) :
    Cert.KernelIdeal.HostValue.mjK (F := F) x1 x5 = Cert.ReferenceIdeal.Read.val_main_v68 (F := F) x1 x5 := rfl

theorem w1t_join (x7 : (⟨Cert.KernelIdeal.S48x40, .f32⟩ : BufTy).Contents (Elt F)) : Cert.KernelIdeal.HostValue.w1tK (F := F) x7 = Cert.ReferenceIdeal.Read.val_main_v4 (F := F) x7 := rfl
theorem w2t_join (x9 : (⟨Cert.KernelIdeal.S48x48, .f32⟩ : BufTy).Contents (Elt F)) : Cert.KernelIdeal.HostValue.w2tK (F := F) x9 = Cert.ReferenceIdeal.Read.val_main_v10 (F := F) x9 := rfl
theorem awt_join (x12 : (⟨Cert.KernelIdeal.S32x32, .f32⟩ : BufTy).Contents (Elt F)) : Cert.KernelIdeal.HostValue.awtK (F := F) x12 = Cert.ReferenceIdeal.Read.val_main_v43 (F := F) x12 := rfl

theorem agg_join (msg : (⟨Cert.KernelIdeal.S800000x48, .f32⟩ : BufTy).Contents (Elt F)) (x1 : (⟨Cert.KernelIdeal.S2x800000, .i32⟩ : BufTy).Contents (Elt F)) (x5 : (⟨Cert.KernelIdeal.S50000, .f32⟩ : BufTy).Contents (Elt F)) :
    Cert.KernelIdeal.HostValue.aggK (F := F) msg x1 x5 = Cert.ReferenceIdeal.RefValue.aggR (F := F) msg x1 x5 := rfl

end Cert.Join

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.JoinGather.lean ====
/-
  The two programs gather the edge end points' element embeddings in different orders: one looks every node's embedding
  up first and then takes the rows at the edges' end points, the other takes the end points' atomic numbers first and
  looks those up. A gather clamps its start index into range, so both read the embedding table at the same row: the
  atomic number of the clamped end point, wrapped and clamped.
-/
import proofs.«425709_j66537633349675_2_alg».proof.Proof.KHostDefs
import proofs.«425709_j66537633349675_2_alg».proof.Proof.Gen.ReferenceIdeal.Read
import proofs.«425709_j66537633349675_2_alg».proof.Proof.LibGatherRows

noncomputable section

namespace Cert.Join

open Idealize.ShloMosaic Idealize.ShloMosaic.TcCoe Idealize.SL.Sem Idealize.ShloMosaic.ValueIdx
  Idealize.ShloMosaic.GatherRows

variable {F : FTy → Type} [FloatOps F]

/-- The column of start indices made of the edges' source nodes (wrapped from the end when negative) is the same array
    in both programs. -/
theorem col_src (x1 : (⟨Cert.KernelIdeal.S2x800000, .i32⟩ : BufTy).Contents (Elt F)) :
    Cert.ReferenceIdeal.Read.val_main_v20 (F := F) x1
      = Cert.KernelIdeal.HostValue.nodeCol (Cert.KernelIdeal.HostValue.srcK x1) := rfl

/-- And so is the column made of the edges' target nodes. -/
theorem col_dst (x1 : (⟨Cert.KernelIdeal.S2x800000, .i32⟩ : BufTy).Contents (Elt F)) :
    Cert.ReferenceIdeal.Read.val_main_v34 (F := F) x1
      = Cert.KernelIdeal.HostValue.nodeCol (Cert.KernelIdeal.HostValue.dstK x1) := rfl

/-- The gather of the flat array of atomic numbers at a column of 800000 start indices has the dimension numbers of the
    general flat gather. -/
theorem dims_flat : Cert.ReferenceIdeal.gather_S50000_S800000x1_S800000_n_0_n_n_0_1_1
    = flatDims 50000 800000 Cert.ReferenceIdeal.Gen.gather_S50000_S800000x1_S800000_n_0_n_n_0_1_1_wf := rfl

/-- At edge `e`, for any column `col` of start indices: the atomic number gathered at `col[e, 0]` and then wrapped from
    the end (plus 119) when negative is the column of all the nodes' wrapped atomic numbers read at the node `col[e, 0]`
    clamped into `[0, 49999]`. -/
theorem wrapped_at (x4 : (⟨Cert.KernelIdeal.S50000, .i32⟩ : BufTy).Contents (Elt F))
    (col : (⟨Cert.KernelIdeal.S800000x1, .i32⟩ : BufTy).Contents (Elt F)) (e : Fin 800000) :
    Scalar.select
        (IntOp.cmpi .slt (Host.gather Cert.ReferenceIdeal.gather_S50000_S800000x1_S800000_n_0_n_n_0_1_1 x4 col (ix1 e)) 0#32)
        (IntOp.addi (Host.gather Cert.ReferenceIdeal.gather_S50000_S800000x1_S800000_n_0_n_n_0_1_1 x4 col (ix1 e)) 119#32)
        (Host.gather Cert.ReferenceIdeal.gather_S50000_S800000x1_S800000_n_0_n_n_0_1_1 x4 col (ix1 e))
      = broadcastInDim Cert.KernelIdeal.S50000x1 ![0] Cert.KernelIdeal.Gen.bcast_S50000_S50000x1_0
          (select
            (cmpi .slt x4 (broadcastInDim Cert.KernelIdeal.S50000 ![] Cert.KernelIdeal.Gen.bcast_S_S50000
              (constantI Cert.KernelIdeal.S_ 32 0#32)))
            (addi x4 (broadcastInDim Cert.KernelIdeal.S50000 ![] Cert.KernelIdeal.Gen.bcast_S_S50000
              (constantI Cert.KernelIdeal.S_ 32 119#32)))
            x4)
          (ix2 (⟨min (col (ix2 e (0 : Fin 1))).toInt.toNat (50000 - 1), clamp_lt (by decide) _⟩ : Fin 50000) (0 : Fin 1)) := by
  rw [dims_flat, gather_flat_apply]
  generalize (⟨min (BitVec.toInt (col (ix2 e (0 : Fin 1)))).toNat (50000 - 1), _⟩ : Fin 50000) = n
  rw [broadcastInDim_apply _ Cert.KernelIdeal.Gen.bcast_S50000_S50000x1_0 _ _ (ix1 n) (fun a => match a with
    | ⟨0, _⟩ => by show n.val = if (50000 : Nat) = 1 then 0 else n.val; rw [if_neg (by decide)])]
  rfl

/-- The source end point's embedding, per edge: the same array in both programs. -/
theorem ei_join (x1 : (⟨Cert.KernelIdeal.S2x800000, .i32⟩ : BufTy).Contents (Elt F)) (x4 : (⟨Cert.KernelIdeal.S50000, .i32⟩ : BufTy).Contents (Elt F)) (x11 : (⟨Cert.KernelIdeal.S119x32, .f32⟩ : BufTy).Contents (Elt F)) :
    Cert.KernelIdeal.HostValue.eiK (F := F) x1 x4 x11 = Cert.ReferenceIdeal.Read.val_main_v28 (F := F) x1 x4 x11 := by
  unfold Cert.KernelIdeal.HostValue.eiK Cert.KernelIdeal.HostValue.nodeEmbK Cert.ReferenceIdeal.Read.val_main_v28
  refine gather_rows_rows Cert.KernelIdeal.Gen.gather_S119x32_S50000x1_S50000x32_1_0_n_n_0_1_132_wf
    Cert.KernelIdeal.Gen.gather_S50000x32_S800000x1_S800000x32_1_0_n_n_0_1_132_wf
    Cert.ReferenceIdeal.Gen.gather_S119x32_S800000x1_S800000x32_1_0_n_n_0_1_132_wf x11 _ _ _ (fun e => ?_)
  have hi : Cert.ReferenceIdeal.Read.idx_main_v27 (ix2 e (0 : Fin 1)) = ix1 e := by
    funext a; match a with | ⟨0, _⟩ => rfl
  rw [Cert.ReferenceIdeal.Read.val_main_v27_apply, Cert.ReferenceIdeal.Read.val_main_v26_apply,
    Cert.ReferenceIdeal.Read.val_main_v23_apply, Cert.ReferenceIdeal.Read.val_main_v25_apply,
    Cert.ReferenceIdeal.Read.val_main_v22_apply, Cert.ReferenceIdeal.Read.val_main_v24_apply,
    Cert.ReferenceIdeal.Read.val_main_c_1_apply, Cert.ReferenceIdeal.Read.val_main_c_2_apply, hi]
  unfold Cert.ReferenceIdeal.Read.val_main_v21
  rw [col_src]
  exact wrapped_at x4 _ e

/-- The target end point's embedding, per edge: the same array in both programs. -/
theorem ej_join (x1 : (⟨Cert.KernelIdeal.S2x800000, .i32⟩ : BufTy).Contents (Elt F)) (x4 : (⟨Cert.KernelIdeal.S50000, .i32⟩ : BufTy).Contents (Elt F)) (x11 : (⟨Cert.KernelIdeal.S119x32, .f32⟩ : BufTy).Contents (Elt F)) :
    Cert.KernelIdeal.HostValue.ejK (F := F) x1 x4 x11 = Cert.ReferenceIdeal.Read.val_main_v42 (F := F) x1 x4 x11 := by
  unfold Cert.KernelIdeal.HostValue.ejK Cert.KernelIdeal.HostValue.nodeEmbK Cert.ReferenceIdeal.Read.val_main_v42
  refine gather_rows_rows Cert.KernelIdeal.Gen.gather_S119x32_S50000x1_S50000x32_1_0_n_n_0_1_132_wf
    Cert.KernelIdeal.Gen.gather_S50000x32_S800000x1_S800000x32_1_0_n_n_0_1_132_wf
    Cert.ReferenceIdeal.Gen.gather_S119x32_S800000x1_S800000x32_1_0_n_n_0_1_132_wf x11 _ _ _ (fun e => ?_)
  have hi : Cert.ReferenceIdeal.Read.idx_main_v41 (ix2 e (0 : Fin 1)) = ix1 e := by
    funext a; match a with | ⟨0, _⟩ => rfl
  rw [Cert.ReferenceIdeal.Read.val_main_v41_apply, Cert.ReferenceIdeal.Read.val_main_v40_apply,
    Cert.ReferenceIdeal.Read.val_main_v37_apply, Cert.ReferenceIdeal.Read.val_main_v39_apply,
    Cert.ReferenceIdeal.Read.val_main_v36_apply, Cert.ReferenceIdeal.Read.val_main_v38_apply,
    Cert.ReferenceIdeal.Read.val_main_c_5_apply, Cert.ReferenceIdeal.Read.val_main_c_6_apply, hi]
  unfold Cert.ReferenceIdeal.Read.val_main_v35
  rw [col_dst]
  exact wrapped_at x4 _ e

end Cert.Join

end
-- ==== Proof.Final.lean ====
/-
  The two programs compute one function of the arguments. The reference's result is the layer normalisation, as a
  quotient by the square root, of the node features plus the aggregation of its messages; the kernel's is the same with
  the reciprocal square root, which is the same extended real wherever the variance plus a positive constant is positive,
  that is everywhere; the aggregations are one function of the messages; the messages are one function of arrays that
  are the same host arithmetic in both programs, but for the end points' embeddings, which the two gather in different
  orders to the same rows.
-/
import proofs.«425709_j66537633349675_2_alg».proof.Proof.KResult
import proofs.«425709_j66537633349675_2_alg».proof.Proof.RRef
import proofs.«425709_j66537633349675_2_alg».proof.Proof.RMsg
import proofs.«425709_j66537633349675_2_alg».proof.Proof.RLn
import proofs.«425709_j66537633349675_2_alg».proof.Proof.Join
import proofs.«425709_j66537633349675_2_alg».proof.Proof.JoinGather

noncomputable section

namespace Cert.Join

open Idealize.ShloMosaic Idealize.ShloMosaic.TcCoe Idealize.SL.Sem

/-- The messages are the same array in both programs. -/
theorem msg_join (x0 : (⟨Cert.KernelIdeal.S50000x48, .f32⟩ : BufTy).Contents (Elt Ideal)) (x1 : (⟨Cert.KernelIdeal.S2x800000, .i32⟩ : BufTy).Contents (Elt Ideal)) (x2 : (⟨Cert.KernelIdeal.S800000x40, .f32⟩ : BufTy).Contents (Elt Ideal)) (x3 : (⟨Cert.KernelIdeal.S800000, .f32⟩ : BufTy).Contents (Elt Ideal)) (x4 : (⟨Cert.KernelIdeal.S50000, .i32⟩ : BufTy).Contents (Elt Ideal)) (x5 : (⟨Cert.KernelIdeal.S50000, .f32⟩ : BufTy).Contents (Elt Ideal)) (x7 : (⟨Cert.KernelIdeal.S48x40, .f32⟩ : BufTy).Contents (Elt Ideal)) (x8 : (⟨Cert.KernelIdeal.S48, .f32⟩ : BufTy).Contents (Elt Ideal)) (x9 : (⟨Cert.KernelIdeal.S48x48, .f32⟩ : BufTy).Contents (Elt Ideal)) (x10 : (⟨Cert.KernelIdeal.S48, .f32⟩ : BufTy).Contents (Elt Ideal)) (x11 : (⟨Cert.KernelIdeal.S119x32, .f32⟩ : BufTy).Contents (Elt Ideal)) (x12 : (⟨Cert.KernelIdeal.S32x32, .f32⟩ : BufTy).Contents (Elt Ideal)) :
    Cert.KernelIdeal.HostValue.msgK x0 x1 x2 x3 x4 x5 x7 x8 x9 x10 x11 x12
      = Cert.ReferenceIdeal.Read.val_main_v80 (F := Ideal) x0 x1 x2 x3 x4 x5 x7 x8 x9 x10 x11 x12 := by
  rw [Cert.ReferenceIdeal.RefValue.ref_msg]
  unfold Cert.KernelIdeal.HostValue.msgK
  rw [hdst_join, ei_join, ej_join, mj_join, w1t_join, w2t_join, awt_join]

/-- The results are the same array in both programs. -/
theorem result_join (x0 : (⟨Cert.KernelIdeal.S50000x48, .f32⟩ : BufTy).Contents (Elt Ideal)) (x1 : (⟨Cert.KernelIdeal.S2x800000, .i32⟩ : BufTy).Contents (Elt Ideal)) (x2 : (⟨Cert.KernelIdeal.S800000x40, .f32⟩ : BufTy).Contents (Elt Ideal)) (x3 : (⟨Cert.KernelIdeal.S800000, .f32⟩ : BufTy).Contents (Elt Ideal)) (x4 : (⟨Cert.KernelIdeal.S50000, .i32⟩ : BufTy).Contents (Elt Ideal)) (x5 : (⟨Cert.KernelIdeal.S50000, .f32⟩ : BufTy).Contents (Elt Ideal)) (x7 : (⟨Cert.KernelIdeal.S48x40, .f32⟩ : BufTy).Contents (Elt Ideal)) (x8 : (⟨Cert.KernelIdeal.S48, .f32⟩ : BufTy).Contents (Elt Ideal)) (x9 : (⟨Cert.KernelIdeal.S48x48, .f32⟩ : BufTy).Contents (Elt Ideal)) (x10 : (⟨Cert.KernelIdeal.S48, .f32⟩ : BufTy).Contents (Elt Ideal)) (x11 : (⟨Cert.KernelIdeal.S119x32, .f32⟩ : BufTy).Contents (Elt Ideal)) (x12 : (⟨Cert.KernelIdeal.S32x32, .f32⟩ : BufTy).Contents (Elt Ideal)) (x13 x14 : (⟨Cert.KernelIdeal.S48, .f32⟩ : BufTy).Contents (Elt Ideal)) :
    Cert.KernelIdeal.HostValue.resultK x0 x1 x2 x3 x4 x5 x7 x8 x9 x10 x11 x12 x13 x14
      = Cert.ReferenceIdeal.Read.val_main_v115 (F := Ideal) x0 x1 x2 x3 x4 x5 x7 x8 x9 x10 x11 x12 x13 x14 := by
  rw [Cert.ReferenceIdeal.RefValue.ref_ln, Cert.ReferenceIdeal.RefValue.ref_agg, ← msg_join, ← agg_join, ← Cert.Spec.lnK_eq_lnR]
  rfl

end Cert.Join

end
-- ==== Proof.lean ====
/-
  The certificate of the message-passing layer: the Pallas program (an edge kernel over 250 blocks of 3200 edges, host
  scatter-sums, a layer-normalisation kernel over 10 blocks of 5000 nodes) against its jnp reference, over the extended
  reals.

  Frames. Both readings of the kernel program run to the end without a fault and leave the arguments as launched: the
  two-region frame. The reference is host operations only; its run read back gives its frame.

  Value. The kernel program's result array is what the second call's write-backs leave: block by block the layer
  normalisation x̂ · rsqrt(var + ε) · γ + β of the rows of h + a, where a is the host's aggregation (messages summed into
  their source nodes, over the summed multiplicities clipped below) of what the first call's write-backs leave: block by
  block the message (silu(e W1ᵀ + b1) W2ᵀ + b2 + ⟨eᵢ, eⱼ adaptWᵀ⟩) · h[dst] · (cutoff(d) · mult[dst]) of the edges' rows.
  The reference computes the same message from the same arrays, but for the two embeddings, which it gathers as
  emb[z[src]] where the kernel program gathers emb[z][src]: the same rows, since a gather clamps its start index; the
  same aggregation; and the layer normalisation with a quotient by sqrt(var + ε), which on the extended reals is the
  product with rsqrt(var + ε) because var + ε is positive (at +∞ both give 0). No step needs the inputs finite.
-/
import proofs.«425709_j66537633349675_2_alg».proof.Defs
import proofs.«425709_j66537633349675_2_alg».proof.Proof.Gen.Kernel
import proofs.«425709_j66537633349675_2_alg».proof.Proof.Gen.Kernel.Frame
import proofs.«425709_j66537633349675_2_alg».proof.Proof.Gen.KernelIdeal
import proofs.«425709_j66537633349675_2_alg».proof.Proof.Gen.KernelIdeal.Frame
import proofs.«425709_j66537633349675_2_alg».proof.Proof.Gen.ReferenceIdeal
import proofs.«425709_j66537633349675_2_alg».proof.Proof.Gen.ReferenceIdeal.Run
import proofs.«425709_j66537633349675_2_alg».proof.Proof.Gen.ReferenceIdeal.Read
import proofs.«425709_j66537633349675_2_alg».proof.Proof.Gen.Pre_finite_inputs
import proofs.«425709_j66537633349675_2_alg».proof.Proof.KValue
import proofs.«425709_j66537633349675_2_alg».proof.Proof.Final
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its ideal reading. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel program's is
    'resultK' of its arguments, the reference's its last stage of its own, and the two are one function. -/
theorem algebraic : Cert.algebraic_KernelIdeal_ReferenceIdeal := by
  intro m ρ m' ρ' _ hagree
  refine ⟨fun c => Cert.KernelIdeal.HostValue.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)),
    Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, _, h7, h8, h9, h10, h11, h12, h13, h14⟩ := hagree c
  rw [Cert.ReferenceIdeal.Read.val_main_v115_eq, h0, h1, h2, h3, h4, h5, h7, h8, h9, h10, h11, h12, h13, h14]
  exact (Cert.Join.result_join _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
